-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S128 : Shape := ⟨1, ![128]⟩
abbrev S640000 : Shape := ⟨1, ![640000]⟩
abbrev S2x640000 : Shape := ⟨2, ![2, 640000]⟩
abbrev S_ : Shape := ⟨0, ![]⟩
abbrev S1x640000 : Shape := ⟨2, ![1, 640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_
  slices_S2x640000_S1x640000_0_0 : S2x640000.Slices ![0, 0] S1x640000
  shapeCasts_S1x640000_S640000 : S1x640000.ShapeCasts S640000

variable [Facts]

def fn_part1 {F : FTy → Type} [FloatOps F] (main_arg4 : IVec S2x640000 32) (main_v13 : IVec S_ 1) (main_v16 : IVec S640000 1) : IVec S_ 1 :=
  let main_c_5 : IVec S_ 1 := constantI S_ 1 1#1
  let main_v17 : IVec S_ 1 := (fun x v => Host.reduce IntOp.andi x v reducesTo_S640000_S_d0 h_S_) main_v16 main_c_5
  let main_v18 : IVec S_ 1 := andi main_v13 main_v17
  let main_v19 : IVec S1x640000 32 := (extractStridedSlice S1x640000 ![0, 0] · slices_S2x640000_S1x640000_0_0) main_arg4
  let main_v20 : IVec S640000 32 := shapeCast S640000 main_v19 shapeCasts_S1x640000_S640000
  let main_c_6 : IVec S_ 32 := constantI S_ 32 0#32
  let main_v21 : IVec S640000 32 := broadcastInDim S640000 ![] bcast_S_S640000 main_c_6
  let main_v22 : IVec S640000 1 := cmpi .sge main_v20 main_v21
  let main_c_7 : IVec S_ 1 := constantI S_ 1 1#1
  let main_v23 : IVec S_ 1 := (fun x v => Host.reduce IntOp.andi x v reducesTo_S640000_S_d0 h_S_) main_v22 main_c_7
  let main_v24 : IVec S_ 1 := andi main_v18 main_v23
  let main_v25 : IVec S1x640000 32 := (extractStridedSlice S1x640000 ![0, 0] · slices_S2x640000_S1x640000_0_0) main_arg4
  let main_v26 : IVec S640000 32 := shapeCast S640000 main_v25 shapeCasts_S1x640000_S640000
  let main_c_8 : IVec S_ 32 := constantI S_ 32 10000#32
  let main_v27 : IVec S640000 32 := broadcastInDim S640000 ![] bcast_S_S640000 main_c_8
  let main_v28 : IVec S640000 1 := cmpi .slt main_v26 main_v27
  let main_c_9 : IVec S_ 1 := constantI S_ 1 1#1
  let main_v29 : IVec S_ 1 := (fun x v => Host.reduce IntOp.andi x v reducesTo_S640000_S_d0 h_S_) main_v28 main_c_9
  let main_v30 : IVec S_ 1 := andi main_v24 main_v29
  main_v30

def fn {F : FTy → Type} [FloatOps F] (main_arg0 : FVec F S10000x128 .f32) (main_arg1 : FVec F S128x128 .f32) (main_arg2 : FVec F S128 .f32) (main_arg3 : FVec F S640000 .f32) (main_arg4 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S640000 .f32 := Host.absf main_arg3
  let main_cst_4 : FVec F S_ .f32 := constant S_ .f32 0x7F800000#32
  let main_v15 : FVec F S640000 .f32 := broadcastInDim S640000 ![] bcast_S_S640000 main_cst_4
  let main_v16 : IVec S640000 1 := cmpf .olt main_v14 main_v15
  fn_part1 (F := F) main_arg4 main_v13 main_v16
-- ==== Kernel.lean ====
abbrev S10000x128 : Shape := ⟨2, ![10000, 128]⟩
abbrev S128x128 : Shape := ⟨2, ![128, 128]⟩
abbrev S128 : Shape := ⟨1, ![128]⟩
abbrev S640000 : Shape := ⟨1, ![640000]⟩
abbrev S2x640000 : Shape := ⟨2, ![2, 640000]⟩
abbrev S_ : Shape := ⟨0, ![]⟩
abbrev S10112x128 : Shape := ⟨2, ![10112, 128]⟩
abbrev S10000 : Shape := ⟨1, ![10000]⟩
abbrev S1x640000 : Shape := ⟨2, ![1, 640000]⟩
abbrev S650000 : Shape := ⟨1, ![650000]⟩
abbrev S650000x1 : Shape := ⟨2, ![650000, 1]⟩
abbrev S10112 : Shape := ⟨1, ![10112]⟩
abbrev S10112x1 : Shape := ⟨2, ![10112, 1]⟩
abbrev S5056x128 : Shape := ⟨2, ![5056, 128]⟩
abbrev S5056x1 : Shape := ⟨2, ![5056, 1]⟩
abbrev S650240 : Shape := ⟨1, ![650240]⟩
abbrev S2x10112x128 : Shape := ⟨3, ![2, 10112, 128]⟩
abbrev S512 : Shape := ⟨1, ![512]⟩
abbrev S1x10112x128 : Shape := ⟨3, ![1, 10112, 128]⟩
abbrev S1x10112 : Shape := ⟨2, ![1, 10112]⟩
abbrev S512x1 : Shape := ⟨2, ![512, 1]⟩
abbrev S512x10112 : Shape := ⟨2, ![512, 10112]⟩
abbrev S512x128 : Shape := ⟨2, ![512, 128]⟩
abbrev S1x512 : Shape := ⟨2, ![1, 512]⟩
abbrev S10112x512 : Shape := ⟨2, ![10112, 512]⟩
abbrev S10000x1 : Shape := ⟨2, ![10000, 1]⟩
abbrev S1x128 : Shape := ⟨2, ![1, 128]⟩

abbrev nBuf : Space → Nat
  | .hbm => 57
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S640000, .f32⟩
  | .hbm, ⟨4, _⟩ => ⟨S2x640000, .i32⟩
  | .hbm, ⟨5, _⟩ => ⟨S_, .i32⟩
  | .hbm, ⟨6, _⟩ => ⟨S_, .f32⟩
  | .hbm, ⟨7, _⟩ => ⟨S10112x128, .f32⟩
  | .hbm, ⟨8, _⟩ => ⟨S10000, .i32⟩
  | .hbm, ⟨9, _⟩ => ⟨S1x640000, .i32⟩
  | .hbm, ⟨10, _⟩ => ⟨S640000, .i32⟩
  | .hbm, ⟨11, _⟩ => ⟨S650000, .i32⟩
  | .hbm, ⟨12, _⟩ => ⟨S1x640000, .i32⟩
  | .hbm, ⟨13, _⟩ => ⟨S640000, .i32⟩
  | .hbm, ⟨14, _⟩ => ⟨S650000, .i32⟩
  | .hbm, ⟨15, _⟩ => ⟨S_, .f32⟩
  | .hbm, ⟨16, _⟩ => ⟨S10000, .f32⟩
  | .hbm, ⟨17, _⟩ => ⟨S650000, .f32⟩
  | .hbm, ⟨18, _⟩ => ⟨S_, .f32⟩
  | .hbm, ⟨19, _⟩ => ⟨S10000, .f32⟩
  | .hbm, ⟨20, _⟩ => ⟨S650000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S_, .f32⟩
  | .hbm, ⟨32, _⟩ => ⟨S10112, .f32⟩
  | .hbm, ⟨33, _⟩ => ⟨S10112x1, .f32⟩
  | .hbm, ⟨34, _⟩ => ⟨S10112x128, .bf16⟩
  | .hbm, ⟨35, _⟩ => ⟨S_, .i32⟩
  | .hbm, ⟨36, _⟩ => ⟨S_, .i32⟩
  | .hbm, ⟨37, _⟩ => ⟨S650240, .i32⟩
  | .hbm, ⟨38, _⟩ => ⟨S_, .i32⟩
  | .hbm, ⟨39, _⟩ => ⟨S_, .i32⟩
  | .hbm, ⟨40, _⟩ => ⟨S650240, .i32⟩
  | .hbm, ⟨41, _⟩ => ⟨S_, .i32⟩
  | .hbm, ⟨42, _⟩ => ⟨S_, .f32⟩
  | .hbm, ⟨43, _⟩ => ⟨S650240, .f32⟩
  | .hbm, ⟨44, _⟩ => ⟨S2x10112x128, .f32⟩
  | .hbm, ⟨45, _⟩ => ⟨S1x10112x128, .f32⟩
  | .hbm, ⟨46, _⟩ => ⟨S10112x128, .f32⟩
  | .hbm, ⟨47, _⟩ => ⟨S1x10112x128, .f32⟩
  | .hbm, ⟨48, _⟩ => ⟨S10112x128, .f32⟩
  | .hbm, ⟨49, _⟩ => ⟨S10112x128, .f32⟩
  | .hbm, ⟨50, _⟩ => ⟨S10000x1, .f32⟩
  | .hbm, ⟨51, _⟩ => ⟨S10000x128, .f32⟩
  | .hbm, ⟨52, _⟩ => ⟨S10000x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .local _ .vmem, ⟨0, _⟩ => ⟨S5056x128, .f32⟩
  | .local _ .vmem, ⟨1, _⟩ => ⟨S5056x128, .f32⟩
  | .local _ .vmem, ⟨2, _⟩ => ⟨S128x128, .f32⟩
  | .local _ .vmem, ⟨3, _⟩ => ⟨S5056x1, .f32⟩
  | .local _ .vmem, ⟨4, _⟩ => ⟨S5056x1, .f32⟩
  | .local _ .vmem, ⟨5, _⟩ => ⟨S5056x128, .bf16⟩
  | .local _ .vmem, ⟨6, _⟩ => ⟨S5056x128, .bf16⟩
  | .local _ .vmem, ⟨7, _⟩ => ⟨S10112x128, .bf16⟩
  | .local _ .vmem, ⟨8, _⟩ => ⟨S512, .i32⟩
  | .local _ .vmem, ⟨9, _⟩ => ⟨S512, .i32⟩
  | .local _ .vmem, ⟨10, _⟩ => ⟨S512, .i32⟩
  | .local _ .vmem, ⟨11, _⟩ => ⟨S512, .i32⟩
  | .local _ .vmem, ⟨12, _⟩ => ⟨S512, .f32⟩
  | .local _ .vmem, ⟨13, _⟩ => ⟨S512, .f32⟩
  | .local _ .vmem, ⟨14, _⟩ => ⟨S1x10112x128, .f32⟩
  | .local _ .vmem, ⟨15, _⟩ => ⟨S1x10112x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_c_3 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call3_v0 : Ref sig .tc := ⟨.hbm, 36, rfl⟩
abbrev main_v20 : Ref sig .tc := ⟨.hbm, 37, rfl⟩
abbrev main_c_5 : Ref sig .tc := ⟨.hbm, 38, rfl⟩
abbrev main_call4_v0 : Ref sig .tc := ⟨.hbm, 39, rfl⟩
abbrev main_v21 : Ref sig .tc := ⟨.hbm, 40, rfl⟩
abbrev main_c_6 : Ref sig .tc := ⟨.hbm, 41, rfl⟩
abbrev main_call5_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5056x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5056x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5056x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 635], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let arg1 : BitVec 32 := BitVec.ofNat 32 (i 1).val
  let c635_i32 : BitVec 32 := 635#32
  let v0 : BitVec 32 := Scalar.muli arg0 c635_i32
  let v1 : BitVec 32 := Scalar.addi v0 arg1
  let c0_i32 : BitVec 32 := 0#32
  ![v1.toNat]

def cc1_transform_2 (i : grid1.Coords) : Fin 1 → Nat :=
  let arg0 : BitVec 32 := BitVec.ofNat 32 (i 0).val
  let arg1 : BitVec 32 := BitVec.ofNat 32 (i 1).val
  let c635_i32 : BitVec 32 := 635#32
  let v0 : BitVec 32 := Scalar.muli arg0 c635_i32
  let v1 : BitVec 32 := Scalar.addi v0 arg1
  let c0_i32 : BitVec 32 := 0#32
  ![v1.toNat]

def cc1_transform_3 (i : grid1.Coords) : Fin 1 → Nat :=
  let arg0 : BitVec 32 := BitVec.ofNat 32 (i 0).val
  let arg1 : BitVec 32 := BitVec.ofNat 32 (i 1).val
  let c635_i32 : BitVec 32 := 635#32
  let v0 : BitVec 32 := Scalar.muli arg0 c635_i32
  let v1 : BitVec 32 := Scalar.addi v0 arg1
  let c0_i32 : BitVec 32 := 0#32
  ![v1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S10112x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x10112x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  pads_S10000x128_S10112x128_01120_000 : S10000x128.Pads (![0, 0] : Fin 2 → Nat) ![112, 0] ![0, 0] S10112x128
  h_S_ : 0 < S_.numel
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S10000 : S_.BroadcastsInDim S10000 (![] : Fin 0 → Fin S10000.rank)
  bcast_S650000_S650000x1_0 : S650000.BroadcastsInDim S650000x1 (![0] : Fin 1 → Fin S650000x1.rank)
  pads_S10000_S10112_01120 : S10000.Pads (![0] : Fin 1 → Nat) ![112] ![0] S10112
  bcast_S10112_S10112x1_0 : S10112.BroadcastsInDim S10112x1 (![0] : Fin 1 → Fin S10112x1.rank)
  inb_S5056x128_S5056x128_0_0 : ∀ a, (![0, 0] : Fin 2 → Nat) a + S5056x128.size a ≤ S5056x128.size a
  h_S5056x128 : 0 < S5056x128.numel
  shapeCasts_S5056x128_S5056x128 : S5056x128.ShapeCasts S5056x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5056x1_S5056x1_0_0 : ∀ a, (![0, 0] : Fin 2 → Nat) a + S5056x1.size a ≤ S5056x1.size a
  h_S5056x1 : 0 < S5056x1.numel
  shapeCasts_S5056x1_S5056x1 : S5056x1.ShapeCasts S5056x1
  broadcasts_S5056x1_S5056x128 : S5056x1.Broadcasts S5056x128
  packedbf16_S5056x128_S5056x128_0_0 : (Rect.unit (s := S5056x128) ![0, 0] S5056x128.size inb_S5056x128_S5056x128_0_0).PackedRows (EltTy.packing .bf16)
  pads_S650000_S650240_02400 : S650000.Pads (![0] : Fin 1 → Nat) ![240] ![0] S650240
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  inb_S512_S512_0 : ∀ a, (![0] : Fin 1 → Nat) a + S512.size a ≤ S512.size a
  h_S512 : 0 < S512.numel
  shapeCasts_S512_S512 : S512.ShapeCasts S512
  iota_S1x10112_d1_w32 : S1x10112.Iotas .tc 32 [1]
  shapeCasts_S512_S512x1 : S512.ShapeCasts S512x1
  broadcasts_S512x1_S512x10112 : S512x1.Broadcasts S512x10112
  broadcasts_S1x10112_S512x10112 : S1x10112.Broadcasts S512x10112
  natLt_1_32 : 1 < 32
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  broadcasts_S512x1_S512x128 : S512x1.Broadcasts S512x128
  iota_S10112x1_d0_w32 : S10112x1.Iotas .tc 32 [0]
  shapeCasts_S512_S1x512 : S512.ShapeCasts S1x512
  broadcasts_S10112x1_S10112x512 : S10112x1.Broadcasts S10112x512
  broadcasts_S1x512_S10112x512 : S1x512.Broadcasts S10112x512
  slices_S2x10112x128_S1x10112x128_0_0_0 : S2x10112x128.Slices ![0, 0, 0] S1x10112x128
  slices_S2x10112x128_S1x10112x128_1_0_0 : S2x10112x128.Slices ![1, 0, 0] S1x10112x128
  bcast_S10000_S10000x1_0 : S10000.BroadcastsInDim S10000x1 (![0] : Fin 1 → Fin S10000x1.rank)
  slices_S10112x128_S10000x128_0_0 : S10112x128.Slices ![0, 0] S10000x128
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S650000x1_S650000_n_0_0_1_wf : ScatterDims.WF S10000 S650000x1 S650000 [] [0] [0] 1
  dot_S5056x128_S128x128_S5056x128_1_1_0_0_n_n_wf : DotDims.WF S5056x128 S128x128 S5056x128 [1] [1] [0] [0] [] []
  dot_S512x10112_S10112x128_S512x128_1_0_0_1_n_n_wf : DotDims.WF S512x10112 S10112x128 S512x128 [1] [0] [0] [1] [] []
  dot_S10112x512_S512x128_S10112x128_1_0_0_1_n_n_wf : DotDims.WF S10112x512 S512x128 S10112x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5056x128.size a ≤ S10112x128.size a
  hwx0_0 : ∀ i : grid0.Coords, EltTy.bits .f32 = 32 ∨ (Rect.block (s := S10112x128) S5056x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5056x1.size a ≤ S10112x1.size a
  hwx0_2 : ∀ i : grid0.Coords, EltTy.bits .f32 = 32 ∨ (Rect.block (s := S10112x1) S5056x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5056x128.size a ≤ S10112x128.size a
  hwx0_3 : ∀ i : grid0.Coords, EltTy.bits .bf16 = 32 ∨ (Rect.block (s := S10112x128) S5056x128.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10112x128.size a ≤ S10112x128.size a
  hwx1_0 : ∀ i : grid1.Coords, EltTy.bits .bf16 = 32 ∨ (Rect.block (s := S10112x128) S10112x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S650240.size a
  hwx1_1 : ∀ i : grid1.Coords, EltTy.bits .i32 = 32 ∨ (Rect.block (s := S650240) S512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S650240.size a
  hwx1_2 : ∀ i : grid1.Coords, EltTy.bits .i32 = 32 ∨ (Rect.block (s := S650240) S512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S650240.size a
  hwx1_3 : ∀ i : grid1.Coords, EltTy.bits .f32 = 32 ∨ (Rect.block (s := S650240) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x10112x128.size a ≤ S2x10112x128.size a
  hwx1_4 : ∀ i : grid1.Coords, EltTy.bits .f32 = 32 ∨ (Rect.block (s := S2x10112x128) S1x10112x128.size (cc1_transform_4 i) (hinb1_4 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def dot_S5056x128_S128x128_S5056x128_1_1_0_0_n_n : DotDims S5056x128 S128x128 S5056x128 where
  lhsContracting := [1]
  rhsContracting := [1]
  lhsNonContracting := [0]
  rhsNonContracting := [0]
  lhsBatch := []
  rhsBatch := []
  wf := dot_S5056x128_S128x128_S5056x128_1_1_0_0_n_n_wf
def dot_S512x10112_S10112x128_S512x128_1_0_0_1_n_n : DotDims S512x10112 S10112x128 S512x128 where
  lhsContracting := [1]
  rhsContracting := [0]
  lhsNonContracting := [0]
  rhsNonContracting := [1]
  lhsBatch := []
  rhsBatch := []
  wf := dot_S512x10112_S10112x128_S512x128_1_0_0_1_n_n_wf
def dot_S10112x512_S512x128_S10112x128_1_0_0_1_n_n : DotDims S10112x512 S512x128 S10112x128 where
  lhsContracting := [1]
  rhsContracting := [0]
  lhsNonContracting := [0]
  rhsNonContracting := [1]
  lhsBatch := []
  rhsBatch := []
  wf := dot_S10112x512_S512x128_S10112x128_1_0_0_1_n_n_wf

abbrev win0_0 : Pipeline.Window sig grid0 :=
  Pipeline.Window.ofSpec (Memref.whole main_v0) S5056x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5056x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5056x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S10112x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v20) S512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x10112x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S128 : Shape := ⟨1, ![128]⟩
abbrev S640000 : Shape := ⟨1, ![640000]⟩
abbrev S2x640000 : Shape := ⟨2, ![2, 640000]⟩
abbrev S10000 : Shape := ⟨1, ![10000]⟩
abbrev S1x640000 : Shape := ⟨2, ![1, 640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S640000, .f32⟩
  | .hbm, ⟨4, _⟩ => ⟨S2x640000, .i32⟩
  | .hbm, ⟨5, _⟩ => ⟨S10000, .i32⟩
  | .hbm, ⟨6, _⟩ => ⟨S1x640000, .i32⟩
  | .hbm, ⟨7, _⟩ => ⟨S640000, .i32⟩
  | .hbm, ⟨8, _⟩ => ⟨S650000, .i32⟩
  | .hbm, ⟨9, _⟩ => ⟨S1x640000, .i32⟩
  | .hbm, ⟨10, _⟩ => ⟨S640000, .i32⟩
  | .hbm, ⟨11, _⟩ => ⟨S650000, .i32⟩
  | .hbm, ⟨12, _⟩ => ⟨S_, .f32⟩
  | .hbm, ⟨13, _⟩ => ⟨S10000, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S128x128, .f32⟩
  | .hbm, ⟨48, _⟩ => ⟨S10000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S10000x128, .f32⟩
  | .hbm, ⟨63, _⟩ => ⟨S650000x1, .i32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  transposes_S128x128_S128x128_1_0 : S128x128.Transposes [1, 0] S128x128
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.Spec.lean ====
/-
  The mathematics of the certificate, with no program in sight.

  A graph-convolution layer over 10000 nodes and 650000 weighted edges (640000 given, then one loop per node of
  weight one). With `src e`, `dst e` the end points of edge `e`, `a e` its weight, `δ n` the inverse square root of
  node `n`'s weighted in-degree (zero where the degree is not positive) and `lin n d = ∑ k, x n k · w d k`,
  the layer's output at node `n`, feature `d` is

      gcn n d = (∑ e with dst e = n, lin (src e) d · ((δ (src e) · a e) · δ n)) + b d.

  The kernel computes the same number another way: it scales the rows first (`hp s d = lin s d · δ s`, on a
  table padded with zero rows to 10112), walks the edges in 1270 tiles of 512 (the edge list padded with
  weight-zero edges to 650240), picks each edge's source row by a sum against a 0/1 row (`hot`), multiplies
  by the weight, adds the products into the destination's row by a second sum against a 0/1 column, adds
  the tiles of each half of the edge list (`raw 0`, `raw 1`), and only then multiplies by `δ n` and adds `b d`.
-/
import Idealize.ShloMosaic.PureOps.Ideal
import Idealize.ShloMosaic.Lib.ValueIdx

noncomputable section

namespace Cert.Gcn

open Idealize.ShloMosaic Idealize.ShloMosaic.ValueIdx

/-- node features and output -/
abbrev Sx : Shape := ⟨2, ![10000, 128]⟩
/-- weights -/
abbrev Sw : Shape := ⟨2, ![128, 128]⟩
/-- bias -/
abbrev Sb : Shape := ⟨1, ![128]⟩
/-- per node -/
abbrev Sn : Shape := ⟨1, ![10000]⟩
/-- per edge, loops included -/
abbrev Se : Shape := ⟨1, ![650000]⟩
/-- the node table padded to 10112 rows -/
abbrev Sxp : Shape := ⟨2, ![10112, 128]⟩
/-- the padded per-node column -/
abbrev Scol : Shape := ⟨2, ![10112, 1]⟩
/-- the edge list padded to 1270 tiles of 512 -/
abbrev Sep : Shape := ⟨1, ![650240]⟩
/-- the two halves' accumulated rows -/
abbrev Sraw : Shape := ⟨3, ![2, 10112, 128]⟩

/-- A word read as a node: its value reduced below 10000 (the identity on words below 10000). -/
def node (v : BitVec 32) : Fin 10000 := ⟨v.toNat % 10000, Nat.mod_lt _ (by decide)⟩

/-- One where the word is the number `k`, zero elsewhere. -/
def hot (v : BitVec 32) (k : ℕ) : EReal := if v = BitVec.ofNat 32 k then 1 else 0

/-- Entry `q` of a vector, and `z` past its end. -/
def at1 {α : Type} {n : ℕ} (f : (⟨1, ![n]⟩ : Shape).Idx → α) (z : α) (q : ℕ) : α :=
  if h : q < n then f (ix1 ⟨q, h⟩) else z

/-- The linear layer: row `n` of `x` against row `d` of `w`. -/
def lin (x : Sx.Idx → EReal) (w : Sw.Idx → EReal) (n : Fin 10000) (d : Fin 128) : EReal :=
  ∑ k : Fin 128, x (ix2 n k) * w (ix2 d k)

/-- The layer's output at node `n`, feature `d`. -/
def gcn (x : Sx.Idx → EReal) (w : Sw.Idx → EReal) (b : Sb.Idx → EReal) (src dst : Se.Idx → BitVec 32)
    (a : Se.Idx → EReal) (δ : Sn.Idx → EReal) (n : Fin 10000) (d : Fin 128) : EReal :=
  (∑ e : Fin 650000, if dst (ix1 e) = BitVec.ofNat 32 n.val then
      lin x w (node (src (ix1 e))) d * ((δ (ix1 (node (src (ix1 e)))) * a (ix1 e)) * δ (ix1 n)) else 0) + b (ix1 d)

/-- Row `s`, feature `d` of the scaled table: the padded rows against `w`, times the padded column. -/
def hp (xp : Sxp.Idx → EReal) (w : Sw.Idx → EReal) (dcol : Scol.Idx → EReal) (s : Fin 10112) (d : Fin 128) : EReal :=
  (∑ k : Fin 128, xp (ix2 s k) * w (ix2 d k)) * dcol (ix2 s 0)

/-- What edge tile `t` (edges `512 t … 512 t + 511` of the padded list) adds to row `n`, feature `d`. -/
def part (hpA : Sxp.Idx → EReal) (sP dP : Sep.Idx → BitVec 32) (aP : Sep.Idx → EReal) (t : ℕ) (n : Fin 10112)
    (d : Fin 128) : EReal :=
  ∑ e : Fin 512, hot (at1 dP 0 (512 * t + e.val)) n.val *
    ((∑ s : Fin 10112, hot (at1 sP 0 (512 * t + e.val)) s.val * hpA (ix2 s d)) * at1 aP 0 (512 * t + e.val))

/-- Half `c` of the edge list, all its 635 tiles added up. -/
def raw (hpA : Sxp.Idx → EReal) (sP dP : Sep.Idx → BitVec 32) (aP : Sep.Idx → EReal) (c : Fin 2) (n : Fin 10112)
    (d : Fin 128) : EReal :=
  ∑ i : Fin 635, part hpA sP dP aP (635 * c.val + i.val) n d

/-- A node as a row of the padded table. -/
def padRow (n : Fin 10000) : Fin 10112 := ⟨n.val, by have := n.isLt; omega⟩

end Cert.Gcn

end
-- ==== Proof.Algebra.lean ====
/- The two ways of computing the layer agree. -/
import proofs.«428846_j30477087933050_3_alg».proof.Proof.Spec

noncomputable section

namespace Cert.Gcn

open Idealize.ShloMosaic Idealize.ShloMosaic.ValueIdx

/-! Auxiliary statements, kept in their own namespace. -/
namespace Alg

/-- The coercion from the reals commutes with finite sums. -/
theorem coe_sum {ι : Type} (S : Finset ι) (f : ι → ℝ) :
    ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- Tiles of width `k` laid end to end: a double sum over tile and offset is one sum over positions. -/
theorem sum_tiles_range (f : ℕ → EReal) (k m : ℕ) :
    ∑ i ∈ Finset.range m, ∑ e ∈ Finset.range k, f (k * i + e) = ∑ q ∈ Finset.range (k * m), f q := by
  induction m with
  | zero => simp
  | succ m ih => rw [Finset.sum_range_succ, ih, Nat.mul_succ, Finset.sum_range_add]

/-- The two halves of 635 tiles of 512 positions make up the 650240 positions. -/
theorem halves_add (T : ℕ → EReal) :
    (∑ i : Fin 635, ∑ e : Fin 512, T (512 * (635 * (0 : Fin 2).val + i.val) + e.val)) +
      (∑ i : Fin 635, ∑ e : Fin 512, T (512 * (635 * (1 : Fin 2).val + i.val) + e.val))
      = ∑ q ∈ Finset.range 650240, T q := by
  have e0 : ∀ c : ℕ, (∑ i : Fin 635, ∑ e : Fin 512, T (512 * (635 * c + i.val) + e.val))
      = ∑ i ∈ Finset.range 635, ∑ e ∈ Finset.range 512, T (512 * (635 * c + i) + e) := by
    intro c
    rw [Finset.sum_range (fun i => ∑ e ∈ Finset.range 512, T (512 * (635 * c + i) + e))]
    refine Finset.sum_congr rfl fun i _ => ?_
    rw [Finset.sum_range (fun e => T (512 * (635 * c + i.val) + e))]
  have v0 : ((0 : Fin 2).val) = 0 := rfl
  have v1 : ((1 : Fin 2).val) = 1 := rfl
  rw [v0, v1, e0 0, e0 1]
  have h := Finset.sum_range_add (fun t => ∑ e ∈ Finset.range 512, T (512 * t + e)) 635 635
  have h2 := sum_tiles_range T 512 (635 + 635)
  simp only [Nat.mul_zero, Nat.zero_add, Nat.mul_one] at h ⊢
  rw [← h, h2]

/-- A padded vector read at any position is the original vector read there. -/
theorem at1_pad {α : Type} (f : Se.Idx → α) (F : Sep.Idx → α) (z : α)
    (hF : ∀ q : Fin 650240, F (ix1 q) = at1 f z q.val) (q : ℕ) : at1 F z q = at1 f z q := by
  by_cases h : q < 650240
  · have := hF ⟨q, h⟩
    simp only [at1, dif_pos h] at this ⊢
    exact this
  · have h' : ¬ q < 650000 := by omega
    simp only [at1, dif_neg h, dif_neg h']

/-- A sum against a 0/1 row picks out one entry. -/
theorem hot_sum (v : BitVec 32) (f : Fin 10112 → EReal) (hv : v.toNat < 10112) :
    ∑ s : Fin 10112, hot v s.val * f s = f ⟨v.toNat, hv⟩ := by
  rw [Finset.sum_eq_single (⟨v.toNat, hv⟩ : Fin 10112)]
  · simp [hot]
  · intro s _ hs
    have hne : v ≠ BitVec.ofNat 32 s.val := by
      intro h
      apply hs
      apply Fin.ext
      have hs' : s.val < 2 ^ 32 := lt_trans s.isLt (by norm_num)
      have ht := congrArg BitVec.toNat h
      rw [BitVec.toNat_ofNat, Nat.mod_eq_of_lt hs'] at ht
      exact ht.symm
    simp [hot, hne]
  · intro h
    exact absurd (Finset.mem_univ _) h

/-- One position of the padded edge list, read through the original vectors. -/
def term (HPA : Sxp.Idx → EReal) (src dst : Se.Idx → BitVec 32) (a : Se.Idx → EReal) (n : Fin 10112) (d : Fin 128)
    (q : ℕ) : EReal :=
  hot (at1 dst 0 q) n.val * ((∑ s : Fin 10112, hot (at1 src 0 q) s.val * HPA (ix2 s d)) * at1 a 0 q)

/-- The two halves together are the sum of the positions' terms. -/
theorem raw_add (HPA : Sxp.Idx → EReal) (src dst : Se.Idx → BitVec 32) (a : Se.Idx → EReal)
    (SP DP : Sep.Idx → BitVec 32) (AP : Sep.Idx → EReal)
    (hSP : ∀ q : Fin 650240, SP (ix1 q) = at1 src 0#32 q.val)
    (hDP : ∀ q : Fin 650240, DP (ix1 q) = at1 dst 0#32 q.val)
    (hAP : ∀ q : Fin 650240, AP (ix1 q) = at1 a 0 q.val)
    (n : Fin 10112) (d : Fin 128) :
    raw HPA SP DP AP 0 n d + raw HPA SP DP AP 1 n d = ∑ q ∈ Finset.range 650240, term HPA src dst a n d q := by
  have hS' : ∀ q, at1 SP (0 : BitVec 32) q = at1 src (0 : BitVec 32) q := at1_pad src SP 0 hSP
  have hD' : ∀ q, at1 DP (0 : BitVec 32) q = at1 dst (0 : BitVec 32) q := at1_pad dst DP 0 hDP
  have hA' : ∀ q, at1 AP (0 : EReal) q = at1 a 0 q := at1_pad a AP 0 hAP
  rw [← halves_add (term HPA src dst a n d)]
  simp only [raw, part, term, hS', hD', hA']

/-- Past the 650000 edges the weight is zero, so the position adds nothing. -/
theorem term_pad (HPA : Sxp.Idx → EReal) (src dst : Se.Idx → BitVec 32) (a : Se.Idx → EReal) (n : Fin 10112)
    (d : Fin 128) (q : ℕ) (hq : ¬ q < 650000) : term HPA src dst a n d q = 0 := by
  have : at1 a 0 q = 0 := by simp only [at1, dif_neg hq]
  rw [term, this, mul_zero, mul_zero]

/-- Only the 650000 edges contribute. -/
theorem sum_term (HPA : Sxp.Idx → EReal) (src dst : Se.Idx → BitVec 32) (a : Se.Idx → EReal) (n : Fin 10112)
    (d : Fin 128) :
    ∑ q ∈ Finset.range 650240, term HPA src dst a n d q = ∑ e : Fin 650000, term HPA src dst a n d e.val := by
  have h := Finset.sum_range_add (term HPA src dst a n d) 650000 240
  have hz : ∑ q ∈ Finset.range 240, term HPA src dst a n d (650000 + q) = 0 :=
    Finset.sum_eq_zero fun q _ => term_pad HPA src dst a n d _ (by omega)
  rw [hz, add_zero] at h
  rw [← Finset.sum_range (term HPA src dst a n d)]
  exact h

/-- A source word below 10000 reads its own row of the scaled table: the linear layer's row times the node's factor. -/
theorem hpa_row (x : Sx.Idx → EReal) (w : Sw.Idx → EReal) (δ : Sn.Idx → EReal)
    (XP : Sxp.Idx → EReal) (DCOL : Scol.Idx → EReal) (HPA : Sxp.Idx → EReal)
    (hXP : ∀ (s : Fin 10112) (k : Fin 128), XP (ix2 s k) = if h : s.val < 10000 then x (ix2 ⟨s.val, h⟩ k) else 0)
    (hDCOL : ∀ s : Fin 10112, DCOL (ix2 s 0) = if h : s.val < 10000 then δ (ix1 ⟨s.val, h⟩) else 0)
    (hHPA : ∀ (s : Fin 10112) (d : Fin 128), HPA (ix2 s d) = hp XP w DCOL s d)
    (v : BitVec 32) (hv : v.toNat < 10000) (hv' : v.toNat < 10112) (d : Fin 128) :
    HPA (ix2 ⟨v.toNat, hv'⟩ d) = lin x w (node v) d * δ (ix1 (node v)) := by
  have hn : node v = ⟨v.toNat, hv⟩ := Fin.ext (Nat.mod_eq_of_lt hv)
  rw [hHPA, hp, hDCOL, hn, lin, dif_pos (show (⟨v.toNat, hv'⟩ : Fin 10112).val < 10000 from hv)]
  congr 1
  refine Finset.sum_congr rfl fun k _ => ?_
  rw [hXP, dif_pos (show (⟨v.toNat, hv'⟩ : Fin 10112).val < 10000 from hv)]

/-- The term of a true edge: its 0/1 destination factor times the scaled source row times its weight. -/
theorem term_edge (x : Sx.Idx → EReal) (w : Sw.Idx → EReal) (src dst : Se.Idx → BitVec 32)
    (a : Se.Idx → EReal) (δ : Sn.Idx → EReal)
    (XP : Sxp.Idx → EReal) (DCOL : Scol.Idx → EReal) (HPA : Sxp.Idx → EReal)
    (hS : ∀ e : Fin 650000, (src (ix1 e)).toNat < 10000)
    (hXP : ∀ (s : Fin 10112) (k : Fin 128), XP (ix2 s k) = if h : s.val < 10000 then x (ix2 ⟨s.val, h⟩ k) else 0)
    (hDCOL : ∀ s : Fin 10112, DCOL (ix2 s 0) = if h : s.val < 10000 then δ (ix1 ⟨s.val, h⟩) else 0)
    (hHPA : ∀ (s : Fin 10112) (d : Fin 128), HPA (ix2 s d) = hp XP w DCOL s d)
    (n : Fin 10000) (d : Fin 128) (e : Fin 650000) :
    term HPA src dst a (padRow n) d e.val =
      (if dst (ix1 e) = BitVec.ofNat 32 n.val then 1 else 0) *
        ((lin x w (node (src (ix1 e))) d * δ (ix1 (node (src (ix1 e))))) * a (ix1 e)) := by
  have hs : at1 src 0 e.val = src (ix1 e) := by simp only [at1, dif_pos e.isLt, Fin.eta]
  have hd : at1 dst 0 e.val = dst (ix1 e) := by simp only [at1, dif_pos e.isLt, Fin.eta]
  have ha : at1 a 0 e.val = a (ix1 e) := by simp only [at1, dif_pos e.isLt, Fin.eta]
  have hlt : (src (ix1 e)).toNat < 10112 := lt_trans (hS e) (by norm_num)
  rw [term, hs, hd, ha, hot_sum _ _ hlt, hpa_row x w δ XP DCOL HPA hXP hDCOL hHPA _ (hS e) hlt d]
  rfl

/-- Over the reals the factor of the output node moves inside the sum over the edges. -/
theorem real_sum_swap (c : Fin 650000 → Prop) [DecidablePred c] (L ds ar : Fin 650000 → ℝ) (dn : ℝ) :
    (dn : EReal) * ∑ e : Fin 650000,
        (if c e then (1 : EReal) else 0) * (((L e : EReal) * (ds e : EReal)) * (ar e : EReal))
      = ∑ e : Fin 650000,
        if c e then (L e : EReal) * (((ds e : EReal) * (ar e : EReal)) * (dn : EReal)) else 0 := by
  have h1 : ∀ e, (if c e then (1 : EReal) else 0) * (((L e : EReal) * (ds e : EReal)) * (ar e : EReal))
      = ((if c e then L e * ds e * ar e else 0 : ℝ) : EReal) := by
    intro e
    split_ifs <;> simp [EReal.coe_mul]
  have h2 : ∀ e, (if c e then (L e : EReal) * (((ds e : EReal) * (ar e : EReal)) * (dn : EReal)) else 0)
      = ((if c e then L e * ((ds e * ar e) * dn) else 0 : ℝ) : EReal) := by
    intro e
    split_ifs <;> simp [EReal.coe_mul]
  simp only [h1, h2]
  rw [← coe_sum, ← coe_sum, ← EReal.coe_mul]
  refine congrArg Real.toEReal ?_
  rw [Finset.mul_sum]
  refine Finset.sum_congr rfl fun e _ => ?_
  split_ifs <;> ring

end Alg

open Alg in
/-- The kernel's arrangement equals the layer's output, when the features, the weights, the edge weights
    and the degree factors are real numbers and every edge's source word is a node. -/
theorem kernel_eq_gcn
    (x : Sx.Idx → EReal) (w : Sw.Idx → EReal) (b : Sb.Idx → EReal) (src dst : Se.Idx → BitVec 32)
    (a : Se.Idx → EReal) (δ : Sn.Idx → EReal)
    (XP : Sxp.Idx → EReal) (DCOL : Scol.Idx → EReal) (HPA : Sxp.Idx → EReal)
    (SP DP : Sep.Idx → BitVec 32) (AP : Sep.Idx → EReal)
    (hx : ∀ i, ∃ r : ℝ, x i = (r : EReal)) (hw : ∀ i, ∃ r : ℝ, w i = (r : EReal))
    (ha : ∀ i, ∃ r : ℝ, a i = (r : EReal)) (hδ : ∀ i, ∃ r : ℝ, δ i = (r : EReal))
    (hS : ∀ e : Fin 650000, (src (ix1 e)).toNat < 10000)
    (hXP : ∀ (s : Fin 10112) (k : Fin 128), XP (ix2 s k) = if h : s.val < 10000 then x (ix2 ⟨s.val, h⟩ k) else 0)
    (hDCOL : ∀ s : Fin 10112, DCOL (ix2 s 0) = if h : s.val < 10000 then δ (ix1 ⟨s.val, h⟩) else 0)
    (hHPA : ∀ (s : Fin 10112) (d : Fin 128), HPA (ix2 s d) = hp XP w DCOL s d)
    (hSP : ∀ q : Fin 650240, SP (ix1 q) = at1 src 0#32 q.val)
    (hDP : ∀ q : Fin 650240, DP (ix1 q) = at1 dst 0#32 q.val)
    (hAP : ∀ q : Fin 650240, AP (ix1 q) = at1 a 0 q.val)
    (n : Fin 10000) (d : Fin 128) :
    δ (ix1 n) * (raw HPA SP DP AP 0 (padRow n) d + raw HPA SP DP AP 1 (padRow n) d) + b (ix1 d)
      = gcn x w b src dst a δ n d := by
  -- the two halves are one sum over the 650000 edges
  rw [raw_add HPA src dst a SP DP AP hSP hDP hAP, sum_term, gcn]
  refine congrArg (fun r : EReal => r + b (ix1 d)) ?_
  simp only [term_edge x w src dst a δ XP DCOL HPA hS hXP hDCOL hHPA n d]
  -- from here on every factor is a real number
  choose xr hxr using hx
  choose wr hwr using hw
  choose ar har using ha
  choose dr hdr using hδ
  have hlin : ∀ m : Fin 10000,
      lin x w m d = ((∑ k : Fin 128, xr (ix2 m k) * wr (ix2 d k) : ℝ) : EReal) := by
    intro m
    rw [lin, coe_sum]
    refine Finset.sum_congr rfl fun k _ => ?_
    rw [hxr, hwr, EReal.coe_mul]
  simp only [hlin, hdr, har]
  exact real_sum_swap (fun e => dst (ix1 e) = BitVec.ofNat 32 n.val)
    (fun e => ∑ k : Fin 128, xr (ix2 (node (src (ix1 e))) k) * wr (ix2 d k))
    (fun e => dr (ix1 (node (src (ix1 e))))) (fun e => ar (ix1 e)) (dr (ix1 n))

end Cert.Gcn

end
-- ==== Proof.KNames.lean ====
/- Names for the launch arrays and for the quantities both programs compute the same way. -/
import proofs.«428846_j30477087933050_3_alg».proof.Proof.Gen.KernelIdeal
import proofs.«428846_j30477087933050_3_alg».proof.Proof.Gen.ReferenceIdeal.Read
import proofs.«428846_j30477087933050_3_alg».proof.Proof.Spec

noncomputable section

namespace Cert.KernelIdeal.Names

open Idealize.ShloMosaic Idealize.ShloMosaic.TcCoe Idealize.SL.Sem
open Cert.KernelIdeal

variable (m : (ℓ : Loc nD τ sig) → Buf (Elt Ideal) ℓ) (c : Dev nD)

/-- node features -/
abbrev xA : Cert.Gcn.Sx.Idx → EReal := m ((c.tc : Thread nD τ).loc main_arg0)
/-- weights -/
abbrev wA : Cert.Gcn.Sw.Idx → EReal := m ((c.tc : Thread nD τ).loc main_arg1)
/-- bias -/
abbrev bA : Cert.Gcn.Sb.Idx → EReal := m ((c.tc : Thread nD τ).loc main_arg2)
/-- the given edges' weights -/
abbrev ewA : Cert.ReferenceIdeal.S640000.Idx → EReal := m ((c.tc : Thread nD τ).loc main_arg3)
/-- the given edges' end points -/
abbrev eiA : Cert.ReferenceIdeal.S2x640000.Idx → BitVec 32 := m ((c.tc : Thread nD τ).loc main_arg4)
/-- every edge's source: the given ones, then each node's loop -/
abbrev srcA : Cert.Gcn.Se.Idx → BitVec 32 := Cert.ReferenceIdeal.Read.val_main_v3 (F := Ideal) (eiA m c)
/-- every edge's destination -/
abbrev dstA : Cert.Gcn.Se.Idx → BitVec 32 := Cert.ReferenceIdeal.Read.val_main_v6 (F := Ideal) (eiA m c)
/-- every edge's weight: the given ones, then one per loop -/
abbrev aA : Cert.Gcn.Se.Idx → EReal := Cert.ReferenceIdeal.Read.val_main_v8 (F := Ideal) (ewA m c)
/-- each node's degree factor -/
abbrev δA : Cert.Gcn.Sn.Idx → EReal := Cert.ReferenceIdeal.Read.val_main_v15 (F := Ideal) (ewA m c) (eiA m c)

end Cert.KernelIdeal.Names

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KRegion0.lean ====
/- The first pallas_call's output array, read at an index: the scaled table `hp`. -/
import proofs.«428846_j30477087933050_3_alg».proof.Proof.Gen.KernelIdeal.Frame
import proofs.«428846_j30477087933050_3_alg».proof.Proof.Spec
import proofs.«428846_j30477087933050_3_alg».proof.Proof.LibColumn
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The product of the two blocks, read at an index -/

/-- The left operand is read at the output's row. -/
theorem lhs_mm_0 (i : S5056x128.Idx) (q : dot_S5056x128_S128x128_S5056x128_1_1_0_0_n_n.contr.Idx) :
    (dot_S5056x128_S128x128_S5056x128_1_1_0_0_n_n.lhsIdx i q 0).val = (i 0).val := by
  unfold DotDims.lhsIdx
  rw [dif_neg (show ¬(0 : Fin S5056x128.rank) ∈ dot_S5056x128_S128x128_S5056x128_1_1_0_0_n_n.lhsBatch by decide), dif_pos (show (0 : Fin S5056x128.rank) ∈ dot_S5056x128_S128x128_S5056x128_1_1_0_0_n_n.lhsNonContracting by decide)]
  rfl
/-- The left operand's column is the summation index. -/
theorem lhs_mm_1 (i : S5056x128.Idx) (q : dot_S5056x128_S128x128_S5056x128_1_1_0_0_n_n.contr.Idx) :
    (dot_S5056x128_S128x128_S5056x128_1_1_0_0_n_n.lhsIdx i q 1).val = (q ⟨0, by decide⟩).val :=
  dot_S5056x128_S128x128_S5056x128_1_1_0_0_n_n.lhsIdx_val_of_single rfl i q
/-- The right operand is read at the row named by the output's column. -/
theorem rhs_mm_0 (i : S5056x128.Idx) (q : dot_S5056x128_S128x128_S5056x128_1_1_0_0_n_n.contr.Idx) :
    (dot_S5056x128_S128x128_S5056x128_1_1_0_0_n_n.rhsIdx i q 0).val = (i 1).val := by
  unfold DotDims.rhsIdx
  rw [dif_neg (show ¬(0 : Fin S128x128.rank) ∈ dot_S5056x128_S128x128_S5056x128_1_1_0_0_n_n.rhsBatch by decide), dif_pos (show (0 : Fin S128x128.rank) ∈ dot_S5056x128_S128x128_S5056x128_1_1_0_0_n_n.rhsNonContracting by decide)]
  rfl
/-- The right operand's column is the summation index. -/
theorem rhs_mm_1 (i : S5056x128.Idx) (q : dot_S5056x128_S128x128_S5056x128_1_1_0_0_n_n.contr.Idx) :
    (dot_S5056x128_S128x128_S5056x128_1_1_0_0_n_n.rhsIdx i q 1).val = (q ⟨0, by decide⟩).val :=
  dot_S5056x128_S128x128_S5056x128_1_1_0_0_n_n.rhsIdx_val_of_single rfl i q

/-- Rows against rows: entry (p, q) of the product is row p of the first block against row q of the second. -/
theorem mm_apply (a : FVec Ideal S5056x128 .bf16) (b : FVec Ideal S128x128 .bf16) (p : Fin 5056) (q : Fin 128) :
    matmul (F := Ideal) dot_S5056x128_S128x128_S5056x128_1_1_0_0_n_n none a b (constant (F := Ideal) S5056x128 .f32 0x00000000#32) (ix2 p q)
      = ∑ k : Fin 128, a (ix2 p k) * b (ix2 q k) := by
  simp only [matmul]
  rw [Ideal.matmul_constant_zero_apply, ← Equiv.sum_comp (ValueIdx.contrEquiv1 dot_S5056x128_S128x128_S5056x128_1_1_0_0_n_n 128 rfl rfl).symm]
  refine Finset.sum_congr rfl fun k _ => ?_
  have hk := ValueIdx.contrEquiv1_symm_val dot_S5056x128_S128x128_S5056x128_1_1_0_0_n_n 128 rfl rfl k
  have el : dot_S5056x128_S128x128_S5056x128_1_1_0_0_n_n.lhsIdx (ix2 p q) ((ValueIdx.contrEquiv1 dot_S5056x128_S128x128_S5056x128_1_1_0_0_n_n 128 rfl rfl).symm k) = ix2 p k := funext fun ax => Fin.ext (by
    match ax with
    | ⟨0, _⟩ => exact lhs_mm_0 _ _
    | ⟨1, _⟩ => exact (lhs_mm_1 _ _).trans hk)
  have er : dot_S5056x128_S128x128_S5056x128_1_1_0_0_n_n.rhsIdx (ix2 p q) ((ValueIdx.contrEquiv1 dot_S5056x128_S128x128_S5056x128_1_1_0_0_n_n 128 rfl rfl).symm k) = ix2 q k := funext fun ax => Fin.ext (by
    match ax with
    | ⟨0, _⟩ => exact rhs_mm_0 _ _
    | ⟨1, _⟩ => exact (rhs_mm_1 _ _).trans hk)
  rw [el, er]

/-- What the body stores, at row p and feature q of the block: row p of the first block against row q of the
    second, times entry p of the column block. -/
theorem pay_apply (x0 : S5056x128.Idx → EReal) (x1 : S128x128.Idx → EReal) (x2 : S5056x1.Idx → EReal)
    (p : Fin 5056) (q : Fin 128) :
    k0_pay1 (F := Ideal) x0 x1 x2 (ix2 p q) = (∑ k : Fin 128, x0 (ix2 p k) * x1 (ix2 q k)) * x2 (ix2 p (0 : Fin 1)) := by
  unfold k0_pay1
  rw [truncf_apply, mulf_apply, mm_apply, Cert.LibColumn.broadcastTo_a1_ab_apply]
  simp only [shapeCast_self, truncf_apply]

/-! ## From the blocks to the array -/

theorem hz : (![0, 0] : Fin 2 → Nat) = fun _ => 0 := funext fun a => by fin_cases a <;> rfl

/-- The scaled table as one function of the three arrays, index by index. -/
abbrev hpArr (xp : S10112x128.Idx → EReal) (w : S128x128.Idx → EReal) (dc : S10112x1.Idx → EReal) :
    S10112x128.Idx → EReal :=
  fun i => Cert.Gcn.hp xp w dc ⟨(i 0).val, idx2_lt0 i⟩ ⟨(i 1).val, idx2_lt1 i⟩

/-- A block of 5056 rows starting at row r: if the three blocks are the arrays' rows from r on (the second array
    whole), what the body stores at j is the scaled table at row r + j₀, feature j₁. -/
theorem pay_eq_hpArr (x0 : S5056x128.Idx → EReal) (x1 : S128x128.Idx → EReal) (x2 : S5056x1.Idx → EReal)
    (xp : S10112x128.Idx → EReal) (w : S128x128.Idx → EReal) (dc : S10112x1.Idx → EReal) (r : ℕ) (hr : r + 5056 ≤ 10112)
    (h0 : ∀ (p : Fin 5056) (k : Fin 128), x0 (ix2 p k) = xp (ix2 (⟨r + p.val, by have := p.isLt; omega⟩ : Fin 10112) k))
    (h1 : ∀ (q k : Fin 128), x1 (ix2 q k) = w (ix2 q k))
    (h2 : ∀ (p : Fin 5056), x2 (ix2 p (0 : Fin 1)) = dc (ix2 (⟨r + p.val, by have := p.isLt; omega⟩ : Fin 10112) (0 : Fin 1)))
    (j : S5056x128.Idx) (i : S10112x128.Idx) (hi0 : (i 0).val = r + (j 0).val) (hi1 : (i 1).val = (j 1).val) :
    k0_pay1 (F := Ideal) x0 x1 x2 j = hpArr xp w dc i := by
  obtain ⟨p, q, rfl⟩ : ∃ (p : Fin 5056) (q : Fin 128), j = ix2 p q := ⟨j 0, j 1, eq_ix2 j⟩
  rw [pay_apply]
  show _ = (∑ k : Fin 128, xp (ix2 ⟨(i 0).val, idx2_lt0 i⟩ k) * w (ix2 ⟨(i 1).val, idx2_lt1 i⟩ k)) * dc (ix2 ⟨(i 0).val, idx2_lt0 i⟩ 0)
  have er : (⟨(i 0).val, idx2_lt0 i⟩ : Fin 10112) = ⟨r + p.val, by have := p.isLt; omega⟩ := Fin.ext hi0
  have ec : (⟨(i 1).val, idx2_lt1 i⟩ : Fin 128) = q := Fin.ext hi1
  rw [er, ec, h2]
  exact congrArg (· * _) (Finset.sum_congr rfl fun k _ => by rw [h0, h1])

/-- Where each window's block sits at grid point t: the row blocks at block row t, everything else at zero; and
    there are two points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 2 :=
  (by decide +kernel : ∀ t : Fin grid0.N, _)

/-- What point t writes back is block t of the scaled table. -/
theorem flushed_eq (c : Dev nD) (t : Fin cfg0.N) :
    (dat0 (F := Ideal) V c).flushed 3 t
      = ((cfg0.win 3).blk t).view.read (Elt Ideal) (hpArr (V c main_v0) (V c main_arg1) (V c main_v18)) := by
  show (cfg0.win 3).cut (grid0.coords t) ((dat0 (F := Ideal) V c).after 3 t) = _
  rw [after0_3]
  unfold out0_3
  rw [View.canon_unit_zero hz]
  simp only [View.ld_unit_zero (S := S5056x128) hz, View.ld_unit_zero (S := S128x128) hz, View.ld_unit_zero (S := S5056x1) hz]
  obtain ⟨e00, e01, e10, e11, e20, e21, e30, e31, ht⟩ := idx_facts t
  funext j
  show k0_pay1 (F := Ideal) (iblk0 V c 0 t) (iblk0 V c 1 t) (iblk0 V c 2 t) j
    = hpArr (V c main_v0) (V c main_arg1) (V c main_v18) (((cfg0.win 3).blk t).view.emb j)
  refine pay_eq_hpArr (iblk0 V c 0 t) (iblk0 V c 1 t) (iblk0 V c 2 t) (V c main_v0) (V c main_arg1) (V c main_v18)
    (5056 * t.val) (by omega) (fun p k => ?_) (fun q k => ?_) (fun p => ?_) j _ ?_ ?_
  · show V c main_v0 (((cfg0.win 0).blk t).view.emb (ix2 p k)) = _
    refine congrArg (V c main_v0) (funext fun a => Fin.ext ?_)
    match a with
    | ⟨0, _⟩ => show win0_0.index t (0 : Fin 2) * 5056 + 1 * p.val = 5056 * t.val + p.val; omega
    | ⟨1, _⟩ => show win0_0.index t (1 : Fin 2) * 128 + 1 * k.val = k.val; omega
  · show V c main_arg1 (((cfg0.win 1).blk t).view.emb (ix2 q k)) = _
    refine congrArg (V c main_arg1) (funext fun a => Fin.ext ?_)
    match a with
    | ⟨0, _⟩ => show win0_1.index t (0 : Fin 2) * 128 + 1 * q.val = q.val; omega
    | ⟨1, _⟩ => show win0_1.index t (1 : Fin 2) * 128 + 1 * k.val = k.val; omega
  · show V c main_v18 (((cfg0.win 2).blk t).view.emb (ix2 p (0 : Fin 1))) = _
    refine congrArg (V c main_v18) (funext fun a => Fin.ext ?_)
    match a with
    | ⟨0, _⟩ => show win0_2.index t (0 : Fin 2) * 5056 + 1 * p.val = 5056 * t.val + p.val; omega
    | ⟨1, _⟩ => show win0_2.index t (1 : Fin 2) * 1 + 1 * 0 = 0; omega
  · show win0_3.index t (0 : Fin 2) * 5056 + 1 * (j 0).val = 5056 * t.val + (j 0).val; omega
  · show win0_3.index t (1 : Fin 2) * 128 + 1 * (j 1).val = (j 1).val; omega

/-- An index of the array is in point t's block iff each coordinate is in the block's range on its axis. -/
theorem mem_blk (t : Fin cfg0.N) (i : S10112x128.Idx) :
    i ∈ ((cfg0.win 3).blk t).view.set ↔ ∀ a : Fin 2, win0_3.index t a * S5056x128.size a ≤ (i a).val ∧ (i a).val < win0_3.index t a * S5056x128.size a + S5056x128.size a := by
  show i ∈ ((View.whole main_v19).slice (win0_3.rect t)).set ↔ _
  rw [View.set_slice_whole, Rect.mem_set_unit]
  exact Iff.rfl

/-- Row s of the array is in the block of point s / 5056. -/
theorem cover (i : S10112x128.Idx) :
    ∃ t : Fin cfg0.N, (cfg0.win 3).flush t = true ∧ i ∈ ((cfg0.win 3).blk t).view.set := by
  have hi0 : (i 0).val < 10112 := idx2_lt0 i
  have hi1 : (i 1).val < 128 := idx2_lt1 i
  have hN : (i 0).val / 5056 < cfg0.N := by show _ < grid0.N; rw [N_0]; omega
  obtain ⟨e00, e01, e10, e11, e20, e21, e30, e31, ht⟩ := idx_facts ⟨(i 0).val / 5056, hN⟩
  refine ⟨⟨(i 0).val / 5056, hN⟩, flush0_3 _, ?_⟩
  rw [mem_blk]
  intro a
  match a with
  | ⟨0, _⟩ => show win0_3.index ⟨(i 0).val / 5056, hN⟩ (0 : Fin 2) * 5056 ≤ (i 0).val ∧ (i 0).val < win0_3.index ⟨(i 0).val / 5056, hN⟩ (0 : Fin 2) * 5056 + 5056; simp only [] at e30; omega
  | ⟨1, _⟩ => show win0_3.index ⟨(i 0).val / 5056, hN⟩ (1 : Fin 2) * 128 ≤ (i 1).val ∧ (i 1).val < win0_3.index ⟨(i 0).val / 5056, hN⟩ (1 : Fin 2) * 128 + 128; omega

/-- After the first pallas_call its output array is the scaled table. -/
theorem final (c : Dev nD) :
    (dat0 (F := Ideal) V c).arrAt 3 cfg0.N = hpArr (V c main_v0) (V c main_arg1) (V c main_v18) :=
  (dat0 (F := Ideal) V c).arrAt_eq_of_cover 3 _ (fun t _ => flushed_eq V c t) cover

/-- After the first pallas_call its output array holds, at row `s` and feature `d`, row `s` of its first
    operand against row `d` of its second, times entry `s` of its third. -/
theorem value (c : Dev nD) (s : Fin 10112) (d : Fin 128) :
    ((dat0 (F := Ideal) V c).arrAt 3 cfg0.N : S10112x128.Idx → EReal) (ix2 s d)
      = Cert.Gcn.hp (V c main_v0 : S10112x128.Idx → EReal) (V c main_arg1 : S128x128.Idx → EReal)
          (V c main_v18 : S10112x1.Idx → EReal) s d := by
  rw [final V c]

end Cert.KernelIdeal.Region0

end
-- ==== Proof.KPayload1.lean ====
/-
  The second kernel body's arithmetic read at an index.

  The body builds two 0/1 tables by comparing words with row or column numbers: one picks, for each of the tile's
  512 edges, the table row named by the edge's source word (a sum over all 10112 rows against a 0/1 row); the
  other adds each edge's scaled row into the row named by its destination word (a sum over the 512 edges against
  a 0/1 column). Read at one entry, each product is a plain finite sum, every rounding step is the identity at
  the exact values, and the stored value is the previous contents plus the double sum.
-/
import proofs.«428846_j30477087933050_3_alg».proof.Proof.Gen.KernelIdeal.Skeleton
import proofs.«428846_j30477087933050_3_alg».proof.Proof.Spec
import proofs.«428846_j30477087933050_3_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Payload1

open Idealize.ShloMosaic Idealize.ShloMosaic.TcCoe Idealize.ShloMosaic.ValueIdx
open Cert.KernelIdeal Cert.KernelIdeal.Gen

/-! ## The two products read at an entry -/

theorem lhsA_0 (i : S512x128.Idx) (q : dot_S512x10112_S10112x128_S512x128_1_0_0_1_n_n.contr.Idx) :
    (dot_S512x10112_S10112x128_S512x128_1_0_0_1_n_n.lhsIdx i q 0).val = (i 0).val := by
  unfold DotDims.lhsIdx
  rw [dif_neg (show ¬(0 : Fin S512x10112.rank) ∈ dot_S512x10112_S10112x128_S512x128_1_0_0_1_n_n.lhsBatch by decide), dif_pos (show (0 : Fin S512x10112.rank) ∈ dot_S512x10112_S10112x128_S512x128_1_0_0_1_n_n.lhsNonContracting by decide)]
  rfl
theorem lhsA_1 (i : S512x128.Idx) (q : dot_S512x10112_S10112x128_S512x128_1_0_0_1_n_n.contr.Idx) :
    (dot_S512x10112_S10112x128_S512x128_1_0_0_1_n_n.lhsIdx i q 1).val = (q ⟨0, by decide⟩).val :=
  dot_S512x10112_S10112x128_S512x128_1_0_0_1_n_n.lhsIdx_val_of_single rfl i q
theorem rhsA_0 (i : S512x128.Idx) (q : dot_S512x10112_S10112x128_S512x128_1_0_0_1_n_n.contr.Idx) :
    (dot_S512x10112_S10112x128_S512x128_1_0_0_1_n_n.rhsIdx i q 0).val = (q ⟨0, by decide⟩).val :=
  dot_S512x10112_S10112x128_S512x128_1_0_0_1_n_n.rhsIdx_val_of_single rfl i q
theorem rhsA_1 (i : S512x128.Idx) (q : dot_S512x10112_S10112x128_S512x128_1_0_0_1_n_n.contr.Idx) :
    (dot_S512x10112_S10112x128_S512x128_1_0_0_1_n_n.rhsIdx i q 1).val = (i 1).val := by
  unfold DotDims.rhsIdx
  rw [dif_neg (show ¬(1 : Fin S10112x128.rank) ∈ dot_S512x10112_S10112x128_S512x128_1_0_0_1_n_n.rhsBatch by decide), dif_pos (show (1 : Fin S10112x128.rank) ∈ dot_S512x10112_S10112x128_S512x128_1_0_0_1_n_n.rhsNonContracting by decide)]
  rfl

/-- The first product read at (p, d): row p of the left factor against column d of the right, over the 10112 rows of the table. -/
theorem matmulA_apply (A : FVec Ideal S512x10112 .bf16) (B : FVec Ideal S10112x128 .bf16) (p : Fin 512) (d : Fin 128) :
    (matmul dot_S512x10112_S10112x128_S512x128_1_0_0_1_n_n none A B (constant S512x128 .f32 0x00000000#32) : S512x128.Idx → EReal) (ix2 p d)
      = ∑ k : Fin 10112, A (ix2 p k) * B (ix2 k d) := by
  simp only [matmul]
  rw [Ideal.matmul_constant_zero_apply, ← Equiv.sum_comp (contrEquiv1 dot_S512x10112_S10112x128_S512x128_1_0_0_1_n_n 10112 rfl rfl).symm]
  refine Finset.sum_congr rfl fun k _ => ?_
  have hk := contrEquiv1_symm_val dot_S512x10112_S10112x128_S512x128_1_0_0_1_n_n 10112 rfl rfl k
  have el : dot_S512x10112_S10112x128_S512x128_1_0_0_1_n_n.lhsIdx (ix2 p d) ((contrEquiv1 dot_S512x10112_S10112x128_S512x128_1_0_0_1_n_n 10112 rfl rfl).symm k) = ix2 p k := funext fun a => Fin.ext (by
    match a with
    | ⟨0, _⟩ => exact lhsA_0 _ _
    | ⟨1, _⟩ => exact (lhsA_1 _ _).trans hk)
  have er : dot_S512x10112_S10112x128_S512x128_1_0_0_1_n_n.rhsIdx (ix2 p d) ((contrEquiv1 dot_S512x10112_S10112x128_S512x128_1_0_0_1_n_n 10112 rfl rfl).symm k) = ix2 k d := funext fun a => Fin.ext (by
    match a with
    | ⟨0, _⟩ => exact (rhsA_0 _ _).trans hk
    | ⟨1, _⟩ => exact rhsA_1 _ _)
  rw [el, er]

theorem lhsB_0 (i : S10112x128.Idx) (q : dot_S10112x512_S512x128_S10112x128_1_0_0_1_n_n.contr.Idx) :
    (dot_S10112x512_S512x128_S10112x128_1_0_0_1_n_n.lhsIdx i q 0).val = (i 0).val := by
  unfold DotDims.lhsIdx
  rw [dif_neg (show ¬(0 : Fin S10112x512.rank) ∈ dot_S10112x512_S512x128_S10112x128_1_0_0_1_n_n.lhsBatch by decide), dif_pos (show (0 : Fin S10112x512.rank) ∈ dot_S10112x512_S512x128_S10112x128_1_0_0_1_n_n.lhsNonContracting by decide)]
  rfl
theorem lhsB_1 (i : S10112x128.Idx) (q : dot_S10112x512_S512x128_S10112x128_1_0_0_1_n_n.contr.Idx) :
    (dot_S10112x512_S512x128_S10112x128_1_0_0_1_n_n.lhsIdx i q 1).val = (q ⟨0, by decide⟩).val :=
  dot_S10112x512_S512x128_S10112x128_1_0_0_1_n_n.lhsIdx_val_of_single rfl i q
theorem rhsB_0 (i : S10112x128.Idx) (q : dot_S10112x512_S512x128_S10112x128_1_0_0_1_n_n.contr.Idx) :
    (dot_S10112x512_S512x128_S10112x128_1_0_0_1_n_n.rhsIdx i q 0).val = (q ⟨0, by decide⟩).val :=
  dot_S10112x512_S512x128_S10112x128_1_0_0_1_n_n.rhsIdx_val_of_single rfl i q
theorem rhsB_1 (i : S10112x128.Idx) (q : dot_S10112x512_S512x128_S10112x128_1_0_0_1_n_n.contr.Idx) :
    (dot_S10112x512_S512x128_S10112x128_1_0_0_1_n_n.rhsIdx i q 1).val = (i 1).val := by
  unfold DotDims.rhsIdx
  rw [dif_neg (show ¬(1 : Fin S512x128.rank) ∈ dot_S10112x512_S512x128_S10112x128_1_0_0_1_n_n.rhsBatch by decide), dif_pos (show (1 : Fin S512x128.rank) ∈ dot_S10112x512_S512x128_S10112x128_1_0_0_1_n_n.rhsNonContracting by decide)]
  rfl

/-- The second product read at (p, d): row p of the left factor against column d of the right, over the tile's 512 edges. -/
theorem matmulB_apply (A : FVec Ideal S10112x512 .bf16) (B : FVec Ideal S512x128 .bf16) (p : Fin 10112) (d : Fin 128) :
    (matmul dot_S10112x512_S512x128_S10112x128_1_0_0_1_n_n none A B (constant S10112x128 .f32 0x00000000#32) : S10112x128.Idx → EReal) (ix2 p d)
      = ∑ k : Fin 512, A (ix2 p k) * B (ix2 k d) := by
  simp only [matmul]
  rw [Ideal.matmul_constant_zero_apply, ← Equiv.sum_comp (contrEquiv1 dot_S10112x512_S512x128_S10112x128_1_0_0_1_n_n 512 rfl rfl).symm]
  refine Finset.sum_congr rfl fun k _ => ?_
  have hk := contrEquiv1_symm_val dot_S10112x512_S512x128_S10112x128_1_0_0_1_n_n 512 rfl rfl k
  have el : dot_S10112x512_S512x128_S10112x128_1_0_0_1_n_n.lhsIdx (ix2 p d) ((contrEquiv1 dot_S10112x512_S512x128_S10112x128_1_0_0_1_n_n 512 rfl rfl).symm k) = ix2 p k := funext fun a => Fin.ext (by
    match a with
    | ⟨0, _⟩ => exact lhsB_0 _ _
    | ⟨1, _⟩ => exact (lhsB_1 _ _).trans hk)
  have er : dot_S10112x512_S512x128_S10112x128_1_0_0_1_n_n.rhsIdx (ix2 p d) ((contrEquiv1 dot_S10112x512_S512x128_S10112x128_1_0_0_1_n_n 512 rfl rfl).symm k) = ix2 k d := funext fun a => Fin.ext (by
    match a with
    | ⟨0, _⟩ => exact (rhsB_0 _ _).trans hk
    | ⟨1, _⟩ => exact rhsB_1 _ _)
  rw [el, er]

/-! ## The 0/1 tables read at an entry -/

/-- A comparison of vectors read at an index is the comparison of the entries. -/
theorem cmpi_apply {s : Shape} {w : ℕ} (p : CmpIPredicate) (x y : IVec s w) (i : s.Idx) :
    cmpi p x y i = IntOp.cmpi p (x i) (y i) := rfl

/-- The equality bit of two words, widened and read as a signed integer: one where they agree, zero elsewhere. -/
theorem sitofp_cmpi_eq (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.2 h]
    show (((((1#1 : BitVec 1).setWidth 32).toInt : ℤ) : ℝ) : EReal) = 1
    have h1 : ((1#1 : BitVec 1).setWidth 32).toInt = 1 := by decide
    rw [h1]; simp
  · rw [if_neg h, eq_zero_of_ne_one (fun h1 => h (StableHlo.Predicate.cmpi_eq_iff.1 h1))]
    show (((((0#1 : BitVec 1).setWidth 32).toInt : ℤ) : ℝ) : EReal) = 0
    have h0 : ((0#1 : BitVec 1).setWidth 32).toInt = 0 := by decide
    rw [h0]; simp

/-- A length-512 vector stood up as a column and repeated along b columns reads, at (e, q), the vector at e. -/
theorem col_at {α : Type} {b : ℕ} (v : S512.Idx → α) (h0 : S512.ShapeCasts S512) (h1 : S512.ShapeCasts S512x1)
    (h2 : S512x1.Broadcasts ⟨2, ![512, b]⟩) (e : Fin 512) (q : Fin b) :
    broadcastTo ⟨2, ![512, b]⟩ (shapeCast S512x1 (shapeCast S512 v h0) h1) h2 (ix2 e q) = v (ix1 e) := by
  rw [Cert.LibColumn.broadcastTo_a1_ab_apply, Cert.LibColumn.shapeCast_a_a1_apply, shapeCast_self]

/-- A length-512 vector laid as a row and repeated along a rows reads, at (p, e), the vector at e. -/
theorem row_at {α : Type} {a : ℕ} (v : S512.Idx → α) (h0 : S512.ShapeCasts S512) (h1 : S512.ShapeCasts S1x512)
    (h2 : S1x512.Broadcasts ⟨2, ![a, 512]⟩) (p : Fin a) (e : Fin 512) :
    broadcastTo ⟨2, ![a, 512]⟩ (shapeCast S1x512 (shapeCast S512 v h0) h1) h2 (ix2 p e) = v (ix1 e) := by
  rw [broadcastTo_1b_ab_apply, shapeCast_a_1a_apply, shapeCast_self]

/-- The row of column numbers, repeated along 512 rows, reads at (e, s) the word of s. -/
theorem iotaRow_at (h : S1x10112.Iotas .tc 32 [1]) (hb : S1x10112.Broadcasts S512x10112) (e : Fin 512) (s : Fin 10112) :
    broadcastTo S512x10112 (iota .tc S1x10112 32 [1] h) hb (ix2 e s) = BitVec.ofNat 32 s.val := by
  rw [broadcastTo_1b_ab_apply]
  show BitVec.ofNat 32 (0 * _ + s.val) = _
  rw [Nat.zero_mul, Nat.zero_add]

/-- The column of row numbers, repeated along 512 columns, reads at (n, e) the word of n. -/
theorem iotaCol_at (h : S10112x1.Iotas .tc 32 [0]) (hb : S10112x1.Broadcasts S10112x512) (n : Fin 10112) (e : Fin 512) :
    broadcastTo S10112x512 (iota .tc S10112x1 32 [0] h) hb (ix2 n e) = BitVec.ofNat 32 n.val := by
  rw [Cert.LibColumn.broadcastTo_a1_ab_apply]
  show BitVec.ofNat 32 (0 * _ + n.val) = _
  rw [Nat.zero_mul, Nat.zero_add]

/-! ## The two stored values -/

/-- The value stored at a half's first step before accumulating: zero everywhere. -/
theorem pay1_at (n : Fin 10112) (d : Fin 128) :
    (k1_pay1 (F := Ideal) : S1x10112x128.Idx → EReal) (ix3 0 n d) = 0 := by
  unfold k1_pay1
  rw [shapeCast_ab_1ab_apply, broadcast_apply]
  exact Ideal.ofBits_zero_f32

/-- The value stored at every step: the block's previous contents at row `n`, feature `d`, plus, over the tile's
    512 edges, (one where the edge's destination word is `n`) times ((the table's row at the edge's source word,
    picked by a sum against a 0/1 row) times the edge's weight). -/
theorem pay2_at (v3 v5 : S512.Idx → BitVec 32) (v7 : S512.Idx → EReal) (v17 : S10112x128.Idx → EReal)
    (v33 : S1x10112x128.Idx → EReal) (n : Fin 10112) (d : Fin 128) :
    (k1_pay2 (F := Ideal) v3 v5 v7 v17 v33 : S1x10112x128.Idx → EReal) (ix3 0 n d)
      = v33 (ix3 0 n d)
        + ∑ e : Fin 512, Cert.Gcn.hot (v5 (ix1 e)) n.val
            * ((∑ s : Fin 10112, Cert.Gcn.hot (v3 (ix1 e)) s.val * v17 (ix2 s d)) * v7 (ix1 e)) := by
  unfold k1_pay2
  -- the outer casts and the sum: previous contents plus the second product at (n, d)
  rw [shapeCast_ab_1ab_apply, addf_apply, shapeCast_1ab_ab_apply, matmulB_apply]
  refine congrArg (v33 (ix3 0 n d) + ·) (Finset.sum_congr rfl fun e _ => ?_)
  -- edge e: the destination 0/1 entry at (n, e), and the scaled row at (e, d)
  rw [truncf_apply, sitofp_apply, extui_apply, cmpi_apply, iotaCol_at, row_at, sitofp_cmpi_eq,
    truncf_apply, mulf_apply, matmulA_apply, col_at]
  refine congrArg₂ (· * ·) (if_congr eq_comm rfl rfl) (congrArg (· * v7 (ix1 e)) (Finset.sum_congr rfl fun s _ => ?_))
  -- table row s: the source 0/1 entry at (e, s)
  rw [truncf_apply, sitofp_apply, extui_apply, cmpi_apply, col_at, iotaRow_at, sitofp_cmpi_eq, shapeCast_self]
  rfl

end Cert.KernelIdeal.Payload1

end
-- ==== Proof.KRegion1.lean ====
/- The second pallas_call's output array, read at an index. -/
import proofs.«428846_j30477087933050_3_alg».proof.Proof.Gen.KernelIdeal.Frame
import proofs.«428846_j30477087933050_3_alg».proof.Proof.Spec
import proofs.«428846_j30477087933050_3_alg».proof.Proof.KPayload1
import Idealize.ShloMosaic.Lib.ValueIdx
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

section Pieces

variable {F : FTy → Type} [FloatOps F]

/-- The zero offsets of each rank, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A step that does not start a half leaves, over the block's previous contents `xo`, the tile's update of `xo`
    computed from the step's source words `x1`, destination words `x2`, weights `x3` and the table `x0`. -/
theorem out_B (c : Dev nD) (i : grid1.Coords) (a2 : Memref sig .tc .vmem S10112x128 .bf16) (h2 : a2.IsWhole)
    (a3 : Memref sig .tc .vmem S512 .i32) (h3 : a3.IsWhole) (a4 : Memref sig .tc .vmem S512 .i32) (h4 : a4.IsWhole)
    (a5 : Memref sig .tc .vmem S512 .f32) (h5 : a5.IsWhole) (a6 : Memref sig .tc .vmem S1x10112x128 .f32) (h6 : a6.IsWhole)
    (hc : ¬cond1_0 i) (x0 : Vec F S10112x128 .bf16) (x1 : Vec F S512 .i32) (x2 : Vec F S512 .i32) (x3 : Vec F S512 .f32)
    (xo : Vec F S1x10112x128 .f32) :
    out1_B_4 c i a2 h2 a3 h3 a4 h4 a5 h5 a6 h6 hc x0 x1 x2 x3 xo = k1_pay2 x1 x2 x3 x0 xo := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S512) hz1, View.ld_unit_zero (S := S10112x128) hz2, View.ld_unit_zero (S := S1x10112x128) hz3]

/-- A step that starts a half first sets the block to zero and then leaves the tile's update of that zero block. -/
theorem out_A (c : Dev nD) (i : grid1.Coords) (a2 : Memref sig .tc .vmem S10112x128 .bf16) (h2 : a2.IsWhole)
    (a3 : Memref sig .tc .vmem S512 .i32) (h3 : a3.IsWhole) (a4 : Memref sig .tc .vmem S512 .i32) (h4 : a4.IsWhole)
    (a5 : Memref sig .tc .vmem S512 .f32) (h5 : a5.IsWhole) (a6 : Memref sig .tc .vmem S1x10112x128 .f32) (h6 : a6.IsWhole)
    (hc : cond1_0 i) (x0 : Vec F S10112x128 .bf16) (x1 : Vec F S512 .i32) (x2 : Vec F S512 .i32) (x3 : Vec F S512 .f32) :
    out1_A_4 c i a2 h2 a3 h3 a4 h4 a5 h5 a6 h6 hc x0 x1 x2 x3 = k1_pay2 x1 x2 x3 x0 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x10112x128) hz3, View.readCov_unit_zero (S := S1x10112x128) _ hz3]
  simp only [View.readAt_eq_ld, h2.read_unread, h3.read_unread, h4.read_unread, h5.read_unread,
    View.ld_unit_zero (S := S512) hz1, View.ld_unit_zero (S := S10112x128) hz2, View.ld_unit_zero (S := S1x10112x128) hz3]

end Pieces

variable (V : (c : Dev nD) → (b : Ref sig .tc) → Buf (Elt Ideal) ((c : Thread nD τ).loc b))

/-- The four input arrays and each window's block at a point, named at their literal types. -/
abbrev tbl (c : Dev nD) : S10112x128.Idx → EReal := V c main_v19
abbrev srcW (c : Dev nD) : S650240.Idx → BitVec 32 := V c main_v20
abbrev dstW (c : Dev nD) : S650240.Idx → BitVec 32 := V c main_v21
abbrev wts (c : Dev nD) : S650240.Idx → EReal := V c main_v22
abbrev b0 (c : Dev nD) (t : Fin cfg1.N) : S10112x128.Idx → EReal := iblk1 V c 0 t
abbrev b1 (c : Dev nD) (t : Fin cfg1.N) : S512.Idx → BitVec 32 := iblk1 V c 1 t
abbrev b2 (c : Dev nD) (t : Fin cfg1.N) : S512.Idx → BitVec 32 := iblk1 V c 2 t
abbrev b3 (c : Dev nD) (t : Fin cfg1.N) : S512.Idx → EReal := iblk1 V c 3 t

/-- The edge windows' block index at point `t` is `t` itself: `635 * (t / 635) + t % 635`. -/
theorem idx1_1 : ∀ t : Fin cfg1.N, win1_1.index t 0 = t.val :=
  (by decide +kernel : ∀ t : Fin grid1.N, win1_1.index t 0 = t.val)
theorem idx1_2 : ∀ t : Fin cfg1.N, win1_2.index t 0 = t.val :=
  (by decide +kernel : ∀ t : Fin grid1.N, win1_2.index t 0 = t.val)
theorem idx1_3 : ∀ t : Fin cfg1.N, win1_3.index t 0 = t.val :=
  (by decide +kernel : ∀ t : Fin grid1.N, win1_3.index t 0 = t.val)

/-- Entry `e` of the source-word block at point `t` is entry `512 t + e` of the source words (a block's coordinate
    is the block index times the block size plus the coordinate inside the block). -/
theorem b1_at (c : Dev nD) (t : Fin cfg1.N) (e : Fin 512) :
    b1 V c t (ix1 e) = Cert.Gcn.at1 (srcW V c) 0 (512 * t.val + e.val) := by
  have hN : t.val < 1270 := lt_of_lt_of_eq t.isLt (show cfg1.N = 1270 from N_1)
  have hlt : 512 * t.val + e.val < 650240 := by have := e.isLt; omega
  unfold Cert.Gcn.at1
  rw [dif_pos hlt]
  show iblk1 V c 1 t (ix1 e) = V c main_v20 (ix1 ⟨512 * t.val + e.val, hlt⟩)
  unfold iblk1
  rw [View.read_apply]
  show V c main_v20 _ = V c main_v20 _
  congr 1
  funext a
  apply Fin.ext
  match a with
  | ⟨0, _⟩ => show win1_1.index t 0 * 512 + 1 * e.val = 512 * t.val + e.val; rw [idx1_1 t]; omega

/-- The same for the destination words. -/
theorem b2_at (c : Dev nD) (t : Fin cfg1.N) (e : Fin 512) :
    b2 V c t (ix1 e) = Cert.Gcn.at1 (dstW V c) 0 (512 * t.val + e.val) := by
  have hN : t.val < 1270 := lt_of_lt_of_eq t.isLt (show cfg1.N = 1270 from N_1)
  have hlt : 512 * t.val + e.val < 650240 := by have := e.isLt; omega
  unfold Cert.Gcn.at1
  rw [dif_pos hlt]
  show iblk1 V c 2 t (ix1 e) = V c main_v21 (ix1 ⟨512 * t.val + e.val, hlt⟩)
  unfold iblk1
  rw [View.read_apply]
  show V c main_v21 _ = V c main_v21 _
  congr 1
  funext a
  apply Fin.ext
  match a with
  | ⟨0, _⟩ => show win1_2.index t 0 * 512 + 1 * e.val = 512 * t.val + e.val; rw [idx1_2 t]; omega

/-- The same for the weights. -/
theorem b3_at (c : Dev nD) (t : Fin cfg1.N) (e : Fin 512) :
    b3 V c t (ix1 e) = Cert.Gcn.at1 (wts V c) 0 (512 * t.val + e.val) := by
  have hN : t.val < 1270 := lt_of_lt_of_eq t.isLt (show cfg1.N = 1270 from N_1)
  have hlt : 512 * t.val + e.val < 650240 := by have := e.isLt; omega
  unfold Cert.Gcn.at1
  rw [dif_pos hlt]
  show iblk1 V c 3 t (ix1 e) = V c main_v22 (ix1 ⟨512 * t.val + e.val, hlt⟩)
  unfold iblk1
  rw [View.read_apply]
  show V c main_v22 _ = V c main_v22 _
  congr 1
  funext a
  apply Fin.ext
  match a with
  | ⟨0, _⟩ => show win1_3.index t 0 * 512 + 1 * e.val = 512 * t.val + e.val; rw [idx1_3 t]; omega

/-- The table's block is the whole table at every point. -/
theorem b0_at (c : Dev nD) (t : Fin cfg1.N) (s : Fin 10112) (d : Fin 128) :
    b0 V c t (ix2 s d) = tbl V c (ix2 s d) := by
  show iblk1 V c 0 t (ix2 s d) = V c main_v19 (ix2 s d)
  unfold iblk1
  rw [View.read_apply]
  show V c main_v19 _ = V c main_v19 _
  congr 1
  funext a
  apply Fin.ext
  match a with
  | ⟨0, _⟩ => show 0 * 10112 + 1 * s.val = s.val; omega
  | ⟨1, _⟩ => show 0 * 128 + 1 * d.val = d.val; omega

/-- What the tile at point `t` adds, stated over the point's blocks, is `part` of the arrays at tile `t`. -/
theorem part_eq (c : Dev nD) (t : Fin cfg1.N) (n : Fin 10112) (d : Fin 128) :
    (∑ e : Fin 512, Cert.Gcn.hot (b2 V c t (ix1 e)) n.val
        * ((∑ s : Fin 10112, Cert.Gcn.hot (b1 V c t (ix1 e)) s.val * b0 V c t (ix2 s d)) * b3 V c t (ix1 e)))
      = Cert.Gcn.part (tbl V c) (srcW V c) (dstW V c) (wts V c) t.val n d := by
  unfold Cert.Gcn.part
  refine Finset.sum_congr rfl fun e _ => ?_
  rw [b1_at, b2_at, b3_at]
  congr 2
  refine Finset.sum_congr rfl fun s _ => ?_
  rw [b0_at]

/-- The contents after a point that starts a half, and after any other point, as the payloads of the point's blocks. -/
theorem outs_A (c : Dev nD) (t : Fin cfg1.N) (h0 : t.val % 635 = 0) :
    outsAt1 V c t.val t.isLt = k1_pay2 (F := Ideal) (b1 V c t) (b2 V c t) (b3 V c t) (b0 V c t) (k1_pay1 (F := Ideal)) := by
  rw [outsAt1_A V c t h0]
  exact out_A (F := Ideal) c (grid1.coords t) (ms1_0 t) (hs1_0 t) (ms1_1 t) (hs1_1 t) (ms1_2 t) (hs1_2 t) (ms1_3 t) (hs1_3 t)
    (ms1_4 t) (hs1_4 t) ((hcond1_0 t).mpr h0) (iblk1 V c 0 t) (iblk1 V c 1 t) (iblk1 V c 2 t) (iblk1 V c 3 t)

theorem outs_B (c : Dev nD) (t : Fin cfg1.N) (h0 : ¬t.val % 635 = 0) :
    outsAt1 V c t.val t.isLt = k1_pay2 (F := Ideal) (b1 V c t) (b2 V c t) (b3 V c t) (b0 V c t)
      (outsAt1 V c (t.val - 1) (Nat.lt_of_le_of_lt (Nat.sub_le _ _) t.isLt)) := by
  rw [outsAt1_B V c t h0]
  exact out_B (F := Ideal) c (grid1.coords t) (ms1_0 t) (hs1_0 t) (ms1_1 t) (hs1_1 t) (ms1_2 t) (hs1_2 t) (ms1_3 t) (hs1_3 t)
    (ms1_4 t) (hs1_4 t) (fun h => h0 ((hcond1_0 t).mp h)) (iblk1 V c 0 t) (iblk1 V c 1 t) (iblk1 V c 2 t) (iblk1 V c 3 t)
    (outsAt1 V c (t.val - 1) (Nat.lt_of_le_of_lt (Nat.sub_le _ _) t.isLt))

/-- After point `t` the output block holds, at row `n`, feature `d`, the sum of what the tiles of `t`'s half up to
    `t` add: by induction on the point; a point that starts a half stores zero first, any other adds to what the point
    before left. -/
theorem inv (c : Dev nD) : ∀ (t : ℕ) (ht : t < cfg1.N) (n : Fin 10112) (d : Fin 128),
    (outsAt1 V c t ht : S1x10112x128.Idx → EReal) (ix3 0 n d)
      = ∑ i ∈ Finset.range (t % 635 + 1),
          Cert.Gcn.part (tbl V c) (srcW V c) (dstW V c) (wts V c) (635 * (t / 635) + i) n d := by
  intro t
  induction t using Nat.strong_induction_on with
  | _ t ih =>
    intro ht n d
    by_cases h0 : t % 635 = 0
    · refine (congrFun (outs_A V c ⟨t, ht⟩ h0) (ix3 0 n d)).trans ?_
      rw [Cert.KernelIdeal.Payload1.pay2_at, Cert.KernelIdeal.Payload1.pay1_at, part_eq V c ⟨t, ht⟩ n d, zero_add]
      have e1 : 635 * (t / 635) + 0 = t := by omega
      rw [h0, Finset.sum_range_one, e1]
    · refine (congrFun (outs_B V c ⟨t, ht⟩ h0) (ix3 0 n d)).trans ?_
      rw [Cert.KernelIdeal.Payload1.pay2_at, part_eq V c ⟨t, ht⟩ n d]
      show outsAt1 V c (t - 1) _ (ix3 0 n d) + _ = _
      rw [ih (t - 1) (by omega) _ n d]
      have e1 : (t - 1) % 635 + 1 = t % 635 := by omega
      have e2 : (t - 1) / 635 = t / 635 := by omega
      have e3 : 635 * (t / 635) + t % 635 = t := by omega
      rw [e1, e2, Finset.sum_range_succ, e3]

/-- The output array's contents after the region: half `j 0`, row `j 1`, feature `j 2` at that half's sum. -/
abbrev Gv (c : Dev nD) : S2x10112x128.Idx → EReal :=
  fun j => Cert.Gcn.raw (tbl V c) (srcW V c) (dstW V c) (wts V c) (j 0) (j 1) (j 2)

/-- The output window's block index at point `t` is the half `t / 635`. -/
theorem idx1_4 : ∀ t : Fin cfg1.N, win1_4.index t 0 = t.val / 635 :=
  (by decide +kernel : ∀ t : Fin grid1.N, win1_4.index t 0 = t.val / 635)

/-- What is written back at the last point of a half (`t % 635 = 634`) is that half's block of the expected array:
    the sum over all 635 tiles of the half. -/
theorem flushed_eq (c : Dev nD) (t : Fin cfg1.N) (hf : (cfg1.win 4).flush t = true) :
    (dat1 V c).flushed 4 t = ((cfg1.win 4).blk t).view.read (Elt Ideal) (Gv V c) := by
  have hN : t.val < 1270 := lt_of_lt_of_eq t.isLt (show cfg1.N = 1270 from N_1)
  have h634 : t.val % 635 = 634 := (flush1_4 t).mp hf
  show (cfg1.win 4).cut (grid1.coords t) ((dat1 V c).after 4 t) = _
  rw [after1_4]
  funext y
  rw [View.read_apply]
  obtain ⟨n, d, rfl⟩ : ∃ (n : Fin 10112) (d : Fin 128), y = (ix3 0 n d : S1x10112x128.Idx) :=
    ⟨y 1, y 2, by
      funext a
      match a with
      | ⟨0, _⟩ => exact Subsingleton.elim (α := Fin 1) _ _
      | ⟨1, _⟩ => rfl
      | ⟨2, _⟩ => rfl⟩
  show outsAt1 V c t.val t.isLt (ix3 0 n d) = Gv V c (((cfg1.win 4).blk t).view.emb (ix3 0 n d))
  rw [inv V c t.val t.isLt n d, h634]
  have hq : t.val / 635 < 2 := by omega
  have hj : ((cfg1.win 4).blk t).view.emb (ix3 0 n d : S1x10112x128.Idx) = (ix3 ⟨t.val / 635, hq⟩ n d : S2x10112x128.Idx) := by
    funext a
    apply Fin.ext
    match a with
    | ⟨0, _⟩ => show win1_4.index t 0 * 1 + 1 * 0 = t.val / 635; rw [idx1_4 t]; omega
    | ⟨1, _⟩ => show 0 * 10112 + 1 * n.val = n.val; omega
    | ⟨2, _⟩ => show 0 * 128 + 1 * d.val = d.val; omega
  rw [hj]
  show _ = Cert.Gcn.raw (tbl V c) (srcW V c) (dstW V c) (wts V c) ⟨t.val / 635, hq⟩ n d
  unfold Cert.Gcn.raw
  rw [Finset.sum_range]

/-- After the second pallas_call its output array holds, in half `h`, row `n`, feature `d`, the sum over that
    half's 635 edge tiles of what each tile adds to the row. -/
theorem value (c : Dev nD) (h : Fin 2) (n : Fin 10112) (d : Fin 128) :
    ((dat1 (F := Ideal) V c).arrAt 4 cfg1.N : S2x10112x128.Idx → EReal) (ix3 h n d)
      = Cert.Gcn.raw (V c main_v19 : S10112x128.Idx → EReal) (V c main_v20 : S650240.Idx → BitVec 32)
          (V c main_v21 : S650240.Idx → BitVec 32) (V c main_v22 : S650240.Idx → EReal) h n d := by
  have hN : cfg1.N = 1270 := N_1
  have ht : 635 * h.val + 634 < cfg1.N := by rw [hN]; have := h.isLt; omega
  have hf : (cfg1.win 4).flush ⟨635 * h.val + 634, ht⟩ = true :=
    (flush1_4 ⟨635 * h.val + 634, ht⟩).mpr (by show (635 * h.val + 634) % 635 = 634; omega)
  refine ((dat1 (F := Ideal) V c).arrAt_apply_of_mem 4 (Gv V c) (flushed_eq V c) cfg1.N ⟨635 * h.val + 634, ht⟩ (ix3 h n d)
    ht hf ?_).trans rfl
  show (ix3 h n d : S2x10112x128.Idx) ∈ ((View.whole main_v23).slice (win1_4.rect ⟨635 * h.val + 634, ht⟩)).set
  rw [View.set_slice_whole, Rect.mem_set_unit]
  intro a
  have hi : win1_4.index ⟨635 * h.val + 634, ht⟩ 0 = h.val := by
    rw [idx1_4]; show (635 * h.val + 634) / 635 = h.val; omega
  match a with
  | ⟨0, _⟩ =>
    show win1_4.index ⟨635 * h.val + 634, ht⟩ 0 * 1 ≤ h.val ∧ h.val < win1_4.index ⟨635 * h.val + 634, ht⟩ 0 * 1 + 1
    rw [hi]; omega
  | ⟨1, _⟩ => show 0 * 10112 ≤ n.val ∧ n.val < 0 * 10112 + 10112; have := n.isLt; omega
  | ⟨2, _⟩ => show 0 * 128 ≤ d.val ∧ d.val < 0 * 128 + 128; have := d.isLt; omega

end Cert.KernelIdeal.Region1

end
-- ==== Proof.KHostPre.lean ====
/- What the host operations before the first pallas_call leave in its operands. -/
import proofs.«428846_j30477087933050_3_alg».proof.Proof.Gen.KernelIdeal.Frame
import proofs.«428846_j30477087933050_3_alg».proof.Proof.KNames
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.HostPre

open Idealize.ShloMosaic Idealize.ShloMosaic.TcCoe Idealize.ShloMosaic.ValueIdx Idealize.SL.Sem
open Cert.KernelIdeal Cert.KernelIdeal.Gen Cert.KernelIdeal.Names

variable (m : (ℓ : Loc nD τ sig) → Buf (Elt Ideal) ℓ) (ρ : Dev nD → PrngReg) (c : Dev nD)

/-- The integer zero converted is the float zero, at the one index of a scalar. -/
theorem padval (i : S_.Idx) :
    (sitofp (F := Ideal) .f32 (constantI S_ 32 0#32) : S_.Idx → EReal) i = 0 := sitofp_zero

/-! ### The long stretch (edges, weights, degrees), from any contents `V` of the buffers before it -/

section Stage
variable (V : Valuation τ sig (Elt Ideal))

/-- After the long stretch the comparison `deg > 0` is the reference's, over the edge arrays found in `V`. -/
theorem s2_v14 : (StableHlo.after hostOps0_2 V (Proc.devRef .tc main_v14) : (⟨S10000, .i1⟩ : BufTy).Contents (Elt Ideal))
    = Cert.ReferenceIdeal.Read.val_main_v13 (F := Ideal) (V (Proc.devRef .tc main_arg3)) (V (Proc.devRef .tc main_arg4)) := by
  after_results
  rfl

/-- After the long stretch the reciprocal square root of the degrees is the reference's. -/
theorem s2_v15 : (StableHlo.after hostOps0_2 V (Proc.devRef .tc main_v15) : S10000.Idx → EReal)
    = Cert.ReferenceIdeal.Read.val_main_v14 (F := Ideal) (V (Proc.devRef .tc main_arg3)) (V (Proc.devRef .tc main_arg4)) := by
  after_results
  rfl

/-- The float constant zero the select falls back to. -/
theorem s2_cst2 : (StableHlo.after hostOps0_2 V (Proc.devRef .tc main_cst_2) : S_.Idx → EReal)
    = Cert.ReferenceIdeal.Read.val_main_cst_2 (F := Ideal) := by
  after_results <;> rfl

/-- The four short stretches after it: the select, the padding to 10112 entries, the column. -/
theorem s36_v18 :
    (StableHlo.after hostOps0_6 (StableHlo.after hostOps0_5 (StableHlo.after hostOps0_4 (StableHlo.after hostOps0_3 V)))
        (Proc.devRef .tc main_v18) : S10112x1.Idx → EReal)
      = broadcastInDim S10112x1 ![0] bcast_S10112_S10112x1_0
          (pad S10112 ![0] ![112] ![0]
            (select (V (Proc.devRef .tc main_v14)) (V (Proc.devRef .tc main_v15))
              (broadcastInDim S10000 ![] bcast_S_S10000 (id (V (Proc.devRef .tc main_cst_2)))))
            (sitofp (F := Ideal) .f32 (constantI S_ 32 0#32) : S_.Idx → EReal) pads_S10000_S10112_01120 h_S_) := by
  after_results
  rfl

end Stage

/-- The launch arrays are untouched by the first two stretches. -/
theorem w2_arg3 : (W2 (F := Ideal) m ρ c (Proc.devRef .tc main_arg3) : S640000.Idx → EReal) = ewA m c := by
  dsimp only [W2, W1, W0]
  after_results <;> rfl

/-- The same for the edges' end points. -/
theorem w2_arg4 : (W2 (F := Ideal) m ρ c (Proc.devRef .tc main_arg4) : S2x640000.Idx → BitVec 32) = eiA m c := by
  dsimp only [W2, W1, W0]
  after_results <;> rfl

/-- The first operand as a whole: the node features padded below with the converted integer zero. -/
theorem v0_eq : (V7 (F := Ideal) m ρ c main_v0 : S10112x128.Idx → EReal)
   = pad S10112x128 ![0, 0] ![112, 0] ![0, 0] (xA m c) (sitofp (F := Ideal) .f32 (constantI S_ 32 0#32) : S_.Idx → EReal) pads_S10000x128_S10112x128_01120_000 h_S_ := by
  dsimp only [V7, W7, W6, W5, W4, W3, W2, W1, W0]
  after_results
  rfl

/-- The first operand is the node features with 112 zero rows appended. -/
theorem v0_at (s : Fin 10112) (k : Fin 128) :
    (V7 (F := Ideal) m ρ c main_v0 : S10112x128.Idx → EReal) (ix2 s k)
      = if h : s.val < 10000 then xA m c (ix2 ⟨s.val, h⟩ k) else 0 := by
  rw [v0_eq]
  by_cases h : s.val < 10000
  · rw [dif_pos h]
    exact pad_apply_of_inside _ _ _ _ _ pads_S10000x128_S10112x128_01120_000 h_S_ (ix2 s k) (ix2 ⟨s.val, h⟩ k) (fun a =>
      match a with
      | ⟨0, _⟩ => by show s.val = 0 + s.val * (0 + 1); omega
      | ⟨1, _⟩ => by show k.val = 0 + k.val * (0 + 1); omega)
  · rw [dif_neg h]
    refine (pad_apply_of_not_inside _ _ _ _ _ pads_S10000x128_S10112x128_01120_000 h_S_ (ix2 s k) (0 : Fin 2) ?_).trans (padval _)
    intro hin
    have e : (s.val - 0) / (0 + 1) < 10000 := hin.2.2
    omega

/-- The second operand is the weights as launched. -/
theorem arg1_eq : (V7 (F := Ideal) m ρ c main_arg1 : S128x128.Idx → EReal) = wA m c := by
  dsimp only [V7, W7, W6, W5, W4, W3, W2, W1, W0]
  after_results <;> rfl

/-- The third operand as a whole: the degree factors padded to 10112 entries, as a column. -/
theorem v18_eq : (V7 (F := Ideal) m ρ c main_v18 : S10112x1.Idx → EReal)
   = broadcastInDim S10112x1 ![0] bcast_S10112_S10112x1_0 (pad S10112 ![0] ![112] ![0] (δA m c) (sitofp (F := Ideal) .f32 (constantI S_ 32 0#32) : S_.Idx → EReal) pads_S10000_S10112_01120 h_S_) := by
  refine (s36_v18 (W3 m ρ c)).trans ?_
  rw [show W3 (F := Ideal) m ρ c = StableHlo.after hostOps0_2 (W2 m ρ c) from rfl,
    s2_v14, s2_v15, s2_cst2, w2_arg3, w2_arg4]
  rfl

/-- The third operand is the degree factors as a column, with 112 zeros appended. -/
theorem v18_at (s : Fin 10112) :
    (V7 (F := Ideal) m ρ c main_v18 : S10112x1.Idx → EReal) (ix2 s 0)
      = if h : s.val < 10000 then δA m c (ix1 ⟨s.val, h⟩) else 0 := by
  rw [v18_eq]
  refine (broadcastInDim_apply _ bcast_S10112_S10112x1_0 _ (ix2 s 0) (ix1 s) (fun a =>
    match a with
    | ⟨0, _⟩ => rfl)).trans ?_
  by_cases h : s.val < 10000
  · rw [dif_pos h]
    exact pad_apply_of_inside _ _ _ _ _ pads_S10000_S10112_01120 h_S_ (ix1 s) (ix1 ⟨s.val, h⟩) (fun a =>
      match a with
      | ⟨0, _⟩ => by show s.val = 0 + s.val * (0 + 1); omega)
  · rw [dif_neg h]
    refine (pad_apply_of_not_inside _ _ _ _ _ pads_S10000_S10112_01120 h_S_ (ix1 s) (0 : Fin 1) ?_).trans (padval _)
    intro hin
    have e : (s.val - 0) / (0 + 1) < 10000 := hin.2.2
    omega

end Cert.KernelIdeal.HostPre

end
-- ==== Proof.KHostMid.lean ====
/- What the second pallas_call finds in its operands. -/
import proofs.«428846_j30477087933050_3_alg».proof.Proof.Gen.KernelIdeal.Frame
import proofs.«428846_j30477087933050_3_alg».proof.Proof.KNames
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.KernelIdeal.HostMid

open Idealize.ShloMosaic Idealize.ShloMosaic.TcCoe Idealize.ShloMosaic.ValueIdx Idealize.SL.Sem
open Cert.KernelIdeal Cert.KernelIdeal.Gen Cert.KernelIdeal.Names

variable (m : (ℓ : Loc nD τ sig) → Buf (Elt Ideal) ℓ) (ρ : Dev nD → PrngReg) (c : Dev nD)

/-- The integer zero converted is the float zero, at the one index of a scalar. -/
theorem padval (i : S_.Idx) :
    (sitofp (F := Ideal) .f32 (constantI S_ 32 0#32) : S_.Idx → EReal) i = 0 := sitofp_zero

/-- A vector of 650000 entries padded behind to 650240 with a scalar whose value is `z`: the vector inside, `z` past it. -/
theorem pad1_at {α : Type} (x : S650000.Idx → α) (v : S_.Idx → α) (z : α) (hv : ∀ i, v i = z) (q : Fin 650240) :
    pad S650240 ![0] ![240] ![0] x v pads_S650000_S650240_02400 h_S_ (ix1 q) = Cert.Gcn.at1 x z q.val := by
  unfold Cert.Gcn.at1
  by_cases h : q.val < 650000
  · rw [dif_pos h]
    exact pad_apply_of_inside _ _ _ _ _ pads_S650000_S650240_02400 h_S_ (ix1 q) (ix1 ⟨q.val, h⟩) (fun a =>
      match a with
      | ⟨0, _⟩ => by show q.val = 0 + q.val * (0 + 1); omega)
  · rw [dif_neg h]
    refine (pad_apply_of_not_inside _ _ _ _ _ pads_S650000_S650240_02400 h_S_ (ix1 q) (0 : Fin 1) ?_).trans (hv _)
    intro hin
    have e : (q.val - 0) / (0 + 1) < 650000 := hin.2.2
    omega

/-! ### The stretches one at a time, from any contents `V` of the buffers before them -/

section Stage
variable (V : Valuation τ sig (Elt Ideal))

/-- After the long stretch the sources are the reference's: the given ones, then each node's loop. -/
theorem s2_v4 : (StableHlo.after hostOps0_2 V (Proc.devRef .tc main_v4) : S650000.Idx → BitVec 32)
    = Cert.ReferenceIdeal.Read.val_main_v3 (F := Ideal) (V (Proc.devRef .tc main_arg4)) := by
  after_results
  rfl

/-- The destinations likewise. -/
theorem s2_v7 : (StableHlo.after hostOps0_2 V (Proc.devRef .tc main_v7) : S650000.Idx → BitVec 32)
    = Cert.ReferenceIdeal.Read.val_main_v6 (F := Ideal) (V (Proc.devRef .tc main_arg4)) := by
  after_results
  rfl

/-- The weights likewise: the given ones, then a one per loop. -/
theorem s2_v9 : (StableHlo.after hostOps0_2 V (Proc.devRef .tc main_v9) : S650000.Idx → EReal)
    = Cert.ReferenceIdeal.Read.val_main_v8 (F := Ideal) (V (Proc.devRef .tc main_arg3)) := by
  after_results
  rfl

/-- The four short stretches before the first pallas_call write none of the three. -/
theorem s36_v4 :
    StableHlo.after hostOps0_6 (StableHlo.after hostOps0_5 (StableHlo.after hostOps0_4 (StableHlo.after hostOps0_3 V)))
        (Proc.devRef .tc main_v4) = V (Proc.devRef .tc main_v4) := by
  after_results <;> rfl

theorem s36_v7 :
    StableHlo.after hostOps0_6 (StableHlo.after hostOps0_5 (StableHlo.after hostOps0_4 (StableHlo.after hostOps0_3 V)))
        (Proc.devRef .tc main_v7) = V (Proc.devRef .tc main_v7) := by
  after_results <;> rfl

theorem s36_v9 :
    StableHlo.after hostOps0_6 (StableHlo.after hostOps0_5 (StableHlo.after hostOps0_4 (StableHlo.after hostOps0_3 V)))
        (Proc.devRef .tc main_v9) = V (Proc.devRef .tc main_v9) := by
  after_results <;> rfl

/-- The stretches between the two pallas_calls leave the first one's output array as they find it. -/
theorem mid_v19 :
    StableHlo.after hostOps1_5 (StableHlo.after hostOps1_4 (StableHlo.after hostOps1_3 (StableHlo.after hostOps1_2
      (StableHlo.after hostOps1_1 (StableHlo.after hostOps1 V))))) (Proc.devRef .tc main_v19)
      = V (Proc.devRef .tc main_v19) := by
  after_results <;> rfl

/-- They pad the sources behind with the integer zero. -/
theorem mid_v20 :
    (StableHlo.after hostOps1_5 (StableHlo.after hostOps1_4 (StableHlo.after hostOps1_3 (StableHlo.after hostOps1_2
      (StableHlo.after hostOps1_1 (StableHlo.after hostOps1 V))))) (Proc.devRef .tc main_v20) : S650240.Idx → BitVec 32)
      = pad S650240 ![0] ![240] ![0] (V (Proc.devRef .tc main_v4)) (id (constantI S_ 32 0#32))
          pads_S650000_S650240_02400 h_S_ := by
  after_results
  rfl

/-- The destinations likewise. -/
theorem mid_v21 :
    (StableHlo.after hostOps1_5 (StableHlo.after hostOps1_4 (StableHlo.after hostOps1_3 (StableHlo.after hostOps1_2
      (StableHlo.after hostOps1_1 (StableHlo.after hostOps1 V))))) (Proc.devRef .tc main_v21) : S650240.Idx → BitVec 32)
      = pad S650240 ![0] ![240] ![0] (V (Proc.devRef .tc main_v7)) (id (constantI S_ 32 0#32))
          pads_S650000_S650240_02400 h_S_ := by
  after_results
  rfl

/-- The weights with the converted integer zero. -/
theorem mid_v22 :
    (StableHlo.after hostOps1_5 (StableHlo.after hostOps1_4 (StableHlo.after hostOps1_3 (StableHlo.after hostOps1_2
      (StableHlo.after hostOps1_1 (StableHlo.after hostOps1 V))))) (Proc.devRef .tc main_v22) : S650240.Idx → EReal)
      = pad S650240 ![0] ![240] ![0] (V (Proc.devRef .tc main_v9))
          (sitofp (F := Ideal) .f32 (constantI S_ 32 0#32) : S_.Idx → EReal) pads_S650000_S650240_02400 h_S_ := by
  after_results
  rfl

end Stage

/-- The launch arrays are untouched by the first two stretches. -/
theorem w2_arg3 : (W2 (F := Ideal) m ρ c (Proc.devRef .tc main_arg3) : S640000.Idx → EReal) = ewA m c := by
  dsimp only [W2, W1, W0]
  after_results <;> rfl

/-- The same for the edges' end points. -/
theorem w2_arg4 : (W2 (F := Ideal) m ρ c (Proc.devRef .tc main_arg4) : S2x640000.Idx → BitVec 32) = eiA m c := by
  dsimp only [W2, W1, W0]
  after_results <;> rfl

/-- At the first pallas_call's exit the sources' buffer holds every edge's source. -/
theorem w8_v4 : (W8 (F := Ideal) m ρ c (Proc.devRef .tc main_v4) : S650000.Idx → BitVec 32) = srcA m c := by
  rw [W8_of_ne m ρ c main_v4 (by decide)]
  refine (s36_v4 (W3 m ρ c)).trans ?_
  rw [show W3 (F := Ideal) m ρ c = StableHlo.after hostOps0_2 (W2 m ρ c) from rfl, s2_v4, w2_arg4]

/-- The destinations' buffer every edge's destination. -/
theorem w8_v7 : (W8 (F := Ideal) m ρ c (Proc.devRef .tc main_v7) : S650000.Idx → BitVec 32) = dstA m c := by
  rw [W8_of_ne m ρ c main_v7 (by decide)]
  refine (s36_v7 (W3 m ρ c)).trans ?_
  rw [show W3 (F := Ideal) m ρ c = StableHlo.after hostOps0_2 (W2 m ρ c) from rfl, s2_v7, w2_arg4]

/-- The weights' buffer every edge's weight. -/
theorem w8_v9 : (W8 (F := Ideal) m ρ c (Proc.devRef .tc main_v9) : S650000.Idx → EReal) = aA m c := by
  rw [W8_of_ne m ρ c main_v9 (by decide)]
  refine (s36_v9 (W3 m ρ c)).trans ?_
  rw [show W3 (F := Ideal) m ρ c = StableHlo.after hostOps0_2 (W2 m ρ c) from rfl, s2_v9, w2_arg3]

/-- Its first operand is the first pallas_call's output array. -/
theorem v19_eq :
    (V14 (F := Ideal) m ρ c main_v19 : S10112x128.Idx → EReal)
      = ((dat0 (F := Ideal) (V7 m ρ) c).arrAt 3 cfg0.N : S10112x128.Idx → EReal) := by
  refine (mid_v19 (W8 m ρ c)).trans ?_
  exact W8_arr m ρ c 3

/-- Its second operand is the edges' sources, zero-padded to 650240. -/
theorem v20_at (q : Fin 650240) :
    (V14 (F := Ideal) m ρ c main_v20 : S650240.Idx → BitVec 32) (ix1 q) = Cert.Gcn.at1 (srcA m c) 0#32 q.val := by
  have e : (V14 (F := Ideal) m ρ c main_v20 : S650240.Idx → BitVec 32)
      = pad S650240 ![0] ![240] ![0] (srcA m c) (id (constantI S_ 32 0#32)) pads_S650000_S650240_02400 h_S_ := by
    refine (mid_v20 (W8 m ρ c)).trans ?_
    rw [w8_v4]
  rw [e]
  exact pad1_at _ _ _ (fun _ => rfl) q

/-- Its third operand is the edges' destinations, zero-padded. -/
theorem v21_at (q : Fin 650240) :
    (V14 (F := Ideal) m ρ c main_v21 : S650240.Idx → BitVec 32) (ix1 q) = Cert.Gcn.at1 (dstA m c) 0#32 q.val := by
  have e : (V14 (F := Ideal) m ρ c main_v21 : S650240.Idx → BitVec 32)
      = pad S650240 ![0] ![240] ![0] (dstA m c) (id (constantI S_ 32 0#32)) pads_S650000_S650240_02400 h_S_ := by
    refine (mid_v21 (W8 m ρ c)).trans ?_
    rw [w8_v7]
  rw [e]
  exact pad1_at _ _ _ (fun _ => rfl) q

/-- Its fourth operand is the edges' weights, zero-padded. -/
theorem v22_at (q : Fin 650240) :
    (V14 (F := Ideal) m ρ c main_v22 : S650240.Idx → EReal) (ix1 q) = Cert.Gcn.at1 (aA m c) 0 q.val := by
  have e : (V14 (F := Ideal) m ρ c main_v22 : S650240.Idx → EReal)
      = pad S650240 ![0] ![240] ![0] (aA m c) (sitofp (F := Ideal) .f32 (constantI S_ 32 0#32) : S_.Idx → EReal)
          pads_S650000_S650240_02400 h_S_ := by
    refine (mid_v22 (W8 m ρ c)).trans ?_
    rw [w8_v9]
  rw [e]
  exact pad1_at _ _ _ padval q

end Cert.KernelIdeal.HostMid

end
-- ==== Proof.KHostTail.lean ====
/- The host operations after the second pallas_call: the result buffer read at a node and a feature. -/
import proofs.«428846_j30477087933050_3_alg».proof.Proof.Gen.KernelIdeal.Frame
import proofs.«428846_j30477087933050_3_alg».proof.Proof.KNames
import Idealize.ShloMosaic.Lib.ValueIdx
import Idealize.ShloMosaic.Lib.Pipeline.Value
import Idealize.ShloMosaic.Lib.StableHlo.Run

set_option maxRecDepth 16384

noncomputable section

namespace Cert.KernelIdeal.HostTail

open Idealize.ShloMosaic Idealize.ShloMosaic.TcCoe Idealize.ShloMosaic.ValueIdx Idealize.SL.Sem
open Cert.KernelIdeal Cert.KernelIdeal.Gen Cert.KernelIdeal.Names

variable (m : (ℓ : Loc nD τ sig) → Buf (Elt Ideal) ℓ) (ρ : Dev nD → PrngReg) (c : Dev nD)

/-- The second pallas_call's output array, at its literal type. -/
abbrev rawArr : S2x10112x128.Idx → EReal := (dat1 (F := Ideal) (V14 m ρ) c).arrAt 4 cfg1.N

/-- The program's result buffer after the last host stretch, at its literal type. -/
abbrev outArr : S10000x128.Idx → EReal := W16 (F := Ideal) m ρ c (Proc.devRef .tc main_v35)

/-! ## The last host stretch as one term, read at an index -/

/-- The last host stretch's operations over a two-half table `raw`, a per-node factor `dinv` and a bias `b`. -/
def tailTerm (raw : FVec Ideal S2x10112x128 .f32) (dinv : FVec Ideal S10000 .f32) (b : FVec Ideal S128 .f32) :
    FVec Ideal S10000x128 .f32 :=
  addf
    (mulf
      (broadcastInDim S10000x128 ![0, 1] bcast_S10000x1_S10000x128_0_1
        (broadcastInDim S10000x1 ![0] bcast_S10000_S10000x1_0 dinv))
      (extractStridedSlice S10000x128 ![0, 0]
        (addf
          (shapeCast S10112x128
            (extractStridedSlice S1x10112x128 ![0, 0, 0] raw slices_S2x10112x128_S1x10112x128_0_0_0)
            shapeCasts_S1x10112x128_S10112x128)
          (shapeCast S10112x128
            (extractStridedSlice S1x10112x128 ![1, 0, 0] raw slices_S2x10112x128_S1x10112x128_1_0_0)
            shapeCasts_S1x10112x128_S10112x128))
        slices_S10112x128_S10000x128_0_0))
    (broadcastInDim S10000x128 ![0, 1] bcast_S1x128_S10000x128_0_1
      (broadcastInDim S1x128 ![1] bcast_S128_S1x128_1 b))

/-- A vector as a column and then as a rectangle reads, at (n, d), the vector at n. -/
theorem col_at (dinv : FVec Ideal S10000 .f32) (n : Fin 10000) (d : Fin 128) :
    broadcastInDim S10000x128 ![0, 1] bcast_S10000x1_S10000x128_0_1
        (broadcastInDim S10000x1 ![0] bcast_S10000_S10000x1_0 dinv) (ix2 n d) = dinv (ix1 n) := by
  refine (broadcastInDim_apply _ bcast_S10000x1_S10000x128_0_1 _ (ix2 n d) (ix2 n 0) (fun a => ?_)).trans ?_
  · match a with
    | ⟨0, _⟩ => show n.val = if (10000 : Nat) = 1 then 0 else n.val; rw [if_neg (by decide)]
    | ⟨1, _⟩ => show (0 : Nat) = if (1 : Nat) = 1 then 0 else d.val; rw [if_pos rfl]
  · refine broadcastInDim_apply _ bcast_S10000_S10000x1_0 dinv (ix2 n 0) (ix1 n) (fun a => ?_)
    match a with
    | ⟨0, _⟩ => show n.val = if (10000 : Nat) = 1 then 0 else n.val; rw [if_neg (by decide)]

/-- A vector as a row and then as a rectangle reads, at (n, d), the vector at d. -/
theorem row_at (b : FVec Ideal S128 .f32) (n : Fin 10000) (d : Fin 128) :
    broadcastInDim S10000x128 ![0, 1] bcast_S1x128_S10000x128_0_1
        (broadcastInDim S1x128 ![1] bcast_S128_S1x128_1 b) (ix2 n d) = b (ix1 d) := by
  refine (broadcastInDim_apply _ bcast_S1x128_S10000x128_0_1 _ (ix2 n d) (ix2 0 d) (fun a => ?_)).trans ?_
  · match a with
    | ⟨0, _⟩ => show (0 : Nat) = if (1 : Nat) = 1 then 0 else n.val; rw [if_pos rfl]
    | ⟨1, _⟩ => show d.val = if (128 : Nat) = 1 then 0 else d.val; rw [if_neg (by decide)]
  · refine broadcastInDim_apply _ bcast_S128_S1x128_1 b (ix2 0 d) (ix1 d) (fun a => ?_)
    match a with
    | ⟨0, _⟩ => show d.val = if (128 : Nat) = 1 then 0 else d.val; rw [if_neg (by decide)]

/-- Half `h` of the table, its unit axis dropped, reads at (p, d) the table at (h, p, d). -/
theorem half0_at (raw : FVec Ideal S2x10112x128 .f32) (p : Fin 10112) (d : Fin 128) :
    shapeCast S10112x128
        (extractStridedSlice S1x10112x128 ![0, 0, 0] raw slices_S2x10112x128_S1x10112x128_0_0_0)
        shapeCasts_S1x10112x128_S10112x128 (ix2 p d) = raw (ix3 0 p d) := by
  refine (shapeCast_apply _ shapeCasts_S1x10112x128_S10112x128 (ix2 p d) (ix3 0 p d) ?_).trans ?_
  · rewrite [Shape.rowMajor_val_three, Shape.rowMajor_val_two]
    show ((0 : Nat) * 10112 + p.val) * 128 + d.val = p.val * 128 + d.val
    omega
  · refine extractStridedSlice_apply ![0, 0, 0] raw slices_S2x10112x128_S1x10112x128_0_0_0 (ix3 0 p d) (ix3 0 p d) (fun a => ?_)
    match a with
    | ⟨0, _⟩ => show (0 : Nat) = 0 + 0; rfl
    | ⟨1, _⟩ => show p.val = 0 + p.val; omega
    | ⟨2, _⟩ => show d.val = 0 + d.val; omega

theorem half1_at (raw : FVec Ideal S2x10112x128 .f32) (p : Fin 10112) (d : Fin 128) :
    shapeCast S10112x128
        (extractStridedSlice S1x10112x128 ![1, 0, 0] raw slices_S2x10112x128_S1x10112x128_1_0_0)
        shapeCasts_S1x10112x128_S10112x128 (ix2 p d) = raw (ix3 1 p d) := by
  refine (shapeCast_apply _ shapeCasts_S1x10112x128_S10112x128 (ix2 p d) (ix3 0 p d) ?_).trans ?_
  · rewrite [Shape.rowMajor_val_three, Shape.rowMajor_val_two]
    show ((0 : Nat) * 10112 + p.val) * 128 + d.val = p.val * 128 + d.val
    omega
  · refine extractStridedSlice_apply ![1, 0, 0] raw slices_S2x10112x128_S1x10112x128_1_0_0 (ix3 0 p d) (ix3 1 p d) (fun a => ?_)
    match a with
    | ⟨0, _⟩ => show (1 : Nat) = 1 + 0; rfl
    | ⟨1, _⟩ => show p.val = 0 + p.val; omega
    | ⟨2, _⟩ => show d.val = 0 + d.val; omega

/-- The last host stretch at node `n`, feature `d`: the factor at `n` times the two halves' rows `n` added, plus the bias at `d`. -/
theorem tailTerm_at (raw : FVec Ideal S2x10112x128 .f32) (dinv : FVec Ideal S10000 .f32) (b : FVec Ideal S128 .f32)
    (n : Fin 10000) (d : Fin 128) :
    tailTerm raw dinv b (ix2 n d)
      = dinv (ix1 n) * (raw (ix3 0 (Cert.Gcn.padRow n) d) + raw (ix3 1 (Cert.Gcn.padRow n) d)) + b (ix1 d) := by
  unfold tailTerm
  rw [addf_apply, mulf_apply, col_at, row_at]
  rw [extractStridedSlice_apply ![0, 0] _ slices_S10112x128_S10000x128_0_0 (ix2 n d) (ix2 (Cert.Gcn.padRow n) d) (fun a => by
    match a with
    | ⟨0, _⟩ => show n.val = 0 + n.val; omega
    | ⟨1, _⟩ => show d.val = 0 + d.val; omega)]
  rw [addf_apply, half0_at, half1_at]

/-! ## The buffers the last stretch reads, carried back to where they were written -/

/-- The bias buffer is never written: at the second pallas_call's exit it is the launch array. -/
theorem W15_arg2 : W15 (F := Ideal) m ρ c (Proc.devRef .tc main_arg2) = bA m c :=
  calc W15 (F := Ideal) m ρ c (Proc.devRef .tc main_arg2)
    _ = W16 (F := Ideal) m ρ c (Proc.devRef .tc main_arg2) := by
        show _ = StableHlo.after hostOps2 (W15 (F := Ideal) m ρ c) (Proc.devRef .tc main_arg2)
        after_results
    _ = bA m c := W16_main_arg2 m ρ c

/-- The second pallas_call's output buffer at its exit is the array the pipeline leaves. -/
theorem W15_v23 : W15 (F := Ideal) m ρ c (Proc.devRef .tc main_v23) = rawArr m ρ c :=
  W15_arr m ρ c 4

/-- No operation between the two pallas_calls, and neither pallas_call, writes the degree factor's buffer. -/
theorem W15_v16_back : W15 (F := Ideal) m ρ c (Proc.devRef .tc main_v16) = W7 (F := Ideal) m ρ c (Proc.devRef .tc main_v16) :=
  calc W15 (F := Ideal) m ρ c (Proc.devRef .tc main_v16)
    _ = W14 (F := Ideal) m ρ c (Proc.devRef .tc main_v16) := W15_of_ne m ρ c main_v16 (by decide)
    _ = W8 (F := Ideal) m ρ c (Proc.devRef .tc main_v16) := by
        show StableHlo.after hostOps1_5 (StableHlo.after hostOps1_4 (StableHlo.after hostOps1_3 (StableHlo.after hostOps1_2
          (StableHlo.after hostOps1_1 (StableHlo.after hostOps1 (W8 (F := Ideal) m ρ c)))))) (Proc.devRef .tc main_v16) = _
        after_results
    _ = W7 (F := Ideal) m ρ c (Proc.devRef .tc main_v16) := W8_of_ne m ρ c main_v16 (by decide)

/-! ## The degree factor's buffer before the first pallas_call -/

/-- The scatter-add of the weights by destination is the reference's. -/
theorem W3_v14 : (W3 (F := Ideal) m ρ c (Proc.devRef .tc main_v14) : S10000.Idx → BitVec 1)
    = Cert.ReferenceIdeal.Read.val_main_v13 (F := Ideal) (ewA m c) (eiA m c) := by
  show StableHlo.after hostOps0_2 (StableHlo.after hostOps0_1 (StableHlo.after hostOps0 (W0 (F := Ideal) m ρ c)))
    (Proc.devRef .tc main_v14) = _
  after_results
  rfl

theorem W3_v15 : (W3 (F := Ideal) m ρ c (Proc.devRef .tc main_v15) : S10000.Idx → EReal)
    = Cert.ReferenceIdeal.Read.val_main_v14 (F := Ideal) (ewA m c) (eiA m c) := by
  show StableHlo.after hostOps0_2 (StableHlo.after hostOps0_1 (StableHlo.after hostOps0 (W0 (F := Ideal) m ρ c)))
    (Proc.devRef .tc main_v15) = _
  after_results
  rfl

theorem W3_cst2 : (W3 (F := Ideal) m ρ c (Proc.devRef .tc main_cst_2) : S_.Idx → EReal)
    = Cert.ReferenceIdeal.Read.val_main_cst_2 (F := Ideal) := by
  show StableHlo.after hostOps0_2 (StableHlo.after hostOps0_1 (StableHlo.after hostOps0 (W0 (F := Ideal) m ρ c)))
    (Proc.devRef .tc main_cst_2) = _
  after_results
  rfl

/-- The selecting call, over any contents before it. -/
theorem v16_where (V : Valuation τ sig (Elt Ideal)) :
    (StableHlo.after hostOps0_3 V (Proc.devRef .tc main_v16) : S10000.Idx → EReal)
      = select (V (Proc.devRef .tc main_v14) : S10000.Idx → BitVec 1) (V (Proc.devRef .tc main_v15) : S10000.Idx → EReal)
          (broadcastInDim S10000 ![] bcast_S_S10000 (id (V (Proc.devRef .tc main_cst_2) : S_.Idx → EReal))) := by
  after_results
  rfl

/-- The three stretches that follow leave the degree factor's buffer as it is. -/
theorem v16_kept (V : Valuation τ sig (Elt Ideal)) :
    StableHlo.after hostOps0_6 (StableHlo.after hostOps0_5 (StableHlo.after hostOps0_4 V)) (Proc.devRef .tc main_v16)
      = V (Proc.devRef .tc main_v16) := by
  after_results

/-- A select of equal operands. -/
theorem where_congr {p p' : S10000.Idx → BitVec 1} {a a' : S10000.Idx → EReal} {z z' : S_.Idx → EReal}
    (hp : p = p') (ha : a = a') (hz : z = z') :
    select p a (broadcastInDim S10000 ![] bcast_S_S10000 (id z)) = select p' a' (broadcastInDim S10000 ![] bcast_S_S10000 (id z')) := by
  subst hp ha hz; rfl

/-- The degree factor's buffer before the first pallas_call holds the reference's term of the launch arrays: the same
    host operations build both. -/
theorem W7_v16 : (W7 (F := Ideal) m ρ c (Proc.devRef .tc main_v16) : S10000.Idx → EReal) = δA m c :=
  calc (W7 (F := Ideal) m ρ c (Proc.devRef .tc main_v16) : S10000.Idx → EReal)
    _ = W4 (F := Ideal) m ρ c (Proc.devRef .tc main_v16) := v16_kept (W4 (F := Ideal) m ρ c)
    _ = _ := v16_where (W3 (F := Ideal) m ρ c)
    _ = select (Cert.ReferenceIdeal.Read.val_main_v13 (F := Ideal) (ewA m c) (eiA m c))
          (Cert.ReferenceIdeal.Read.val_main_v14 (F := Ideal) (ewA m c) (eiA m c))
          (broadcastInDim S10000 ![] bcast_S_S10000 (id (Cert.ReferenceIdeal.Read.val_main_cst_2 (F := Ideal)))) :=
        where_congr (W3_v14 m ρ c) (W3_v15 m ρ c) (W3_cst2 m ρ c)
    _ = δA m c := rfl

/-! ## The result -/

/-- Equal operands, equal terms. -/
theorem tailTerm_congr {raw raw' : FVec Ideal S2x10112x128 .f32} {dinv dinv' : FVec Ideal S10000 .f32}
    {b b' : FVec Ideal S128 .f32} (hr : raw = raw') (hd : dinv = dinv') (hb : b = b') :
    tailTerm raw dinv b = tailTerm raw' dinv' b' := by
  subst hr hd hb; rfl

/-- The degree factor's buffer at the second pallas_call's exit holds the reference's term of the launch arrays. -/
theorem W15_v16 : (W15 (F := Ideal) m ρ c (Proc.devRef .tc main_v16) : S10000.Idx → EReal) = δA m c :=
  (W15_v16_back m ρ c).trans (W7_v16 m ρ c)

/-- The result buffer is the last stretch's term of the second pallas_call's output, the degree factor and the bias. -/
theorem outArr_eq : outArr m ρ c = tailTerm (rawArr m ρ c) (δA m c) (bA m c) :=
  calc outArr m ρ c
    _ = tailTerm (W15 (F := Ideal) m ρ c (Proc.devRef .tc main_v23)) (W15 (F := Ideal) m ρ c (Proc.devRef .tc main_v16))
          (W15 (F := Ideal) m ρ c (Proc.devRef .tc main_arg2)) := by
        show StableHlo.after hostOps2 (W15 (F := Ideal) m ρ c) (Proc.devRef .tc main_v35) = _
        after_results
        rfl
    _ = tailTerm (rawArr m ρ c) (δA m c) (bA m c) := tailTerm_congr (W15_v23 m ρ c) (W15_v16 m ρ c) (W15_arg2 m ρ c)

/-- The program's result at node `n`, feature `d`: the degree factor times the two halves' rows added, plus the bias. -/
theorem v35_at (n : Fin 10000) (d : Fin 128) :
    outArr m ρ c (ix2 n d)
      = δA m c (ix1 n) * (rawArr m ρ c (ix3 0 (Cert.Gcn.padRow n) d) + rawArr m ρ c (ix3 1 (Cert.Gcn.padRow n) d))
        + bA m c (ix1 d) := by
  rw [outArr_eq, tailTerm_at]

end Cert.KernelIdeal.HostTail

end
-- ==== Proof.Chain.lean ====
/- Facts about the quantities both programs compute the same way. -/
import proofs.«428846_j30477087933050_3_alg».proof.Proof.Gen.ReferenceIdeal.Read
import proofs.«428846_j30477087933050_3_alg».proof.Proof.Spec
import Idealize.ShloMosaic.Lib.ValueIdx
import Idealize.ShloMosaic.Lib.Pipeline.Value
import Idealize.ShloMosaic.Lib.StableHlo.Predicate

noncomputable section

namespace Cert.ReferenceIdeal.Chain

open Idealize.ShloMosaic Idealize.ShloMosaic.ValueIdx
open Cert.ReferenceIdeal Cert.ReferenceIdeal.Read

/-- A concatenation of two vectors read at an entry: below the first vector's length the first vector's entry,
    from there on the second's, the first length less. -/
theorem concat_two_apply {α : Type} {n₁ n₂ n : ℕ} (x₁ : (⟨1, ![n₁]⟩ : Shape).Idx → α) (x₂ : (⟨1, ![n₂]⟩ : Shape).Idx → α)
    (h : Shape.Concatenates [(⟨1, ![n₁]⟩ : Shape), ⟨1, ![n₂]⟩] (⟨1, ![n]⟩ : Shape) 0) (hn : n = n₁ + n₂) (e : Fin n) :
    concatenate (⟨1, ![n]⟩ : Shape) 0 [⟨(⟨1, ![n₁]⟩ : Shape), x₁⟩, ⟨(⟨1, ![n₂]⟩ : Shape), x₂⟩] h (ix1 e) =
      if he : e.val < n₁ then x₁ (ix1 ⟨e.val, he⟩) else x₂ (ix1 ⟨e.val - n₁, by have := e.isLt; omega⟩) := by
  by_cases he : e.val < n₁
  · rw [dif_pos he]
    exact concatenate_pair_apply_left (t := ⟨1, ![n]⟩) (s₁ := ⟨1, ![n₁]⟩) (s₂ := ⟨1, ![n₂]⟩) (0 : Fin 1) x₁ x₂ h (ix1 e) rfl
      (ix1 ⟨e.val, he⟩) (fun b => match b with | ⟨0, _⟩ => rfl)
  · rw [dif_neg he]
    exact concatenate_pair_apply_right (t := ⟨1, ![n]⟩) (s₁ := ⟨1, ![n₁]⟩) (s₂ := ⟨1, ![n₂]⟩) (0 : Fin 1) x₁ x₂ h (ix1 e) rfl rfl
      (ix1 ⟨e.val - n₁, by have := e.isLt; omega⟩) (fun b hb => match b with | ⟨0, _⟩ => absurd rfl hb)
      (by show e.val - n₁ + n₁ = e.val; omega)

/-- Every edge's source word is a node: the given edges' by hypothesis, a loop's because it is the node's number. -/
theorem src_lt (ei : S2x640000.Idx → BitVec 32) (hrow : ∀ e : Fin 640000, (ei (ix2 (0 : Fin 2) e)).toNat < 10000) :
    ∀ e : Fin 650000, ((val_main_v3 (F := Ideal) ei : S650000.Idx → BitVec 32) (ix1 e)).toNat < 10000 := by
  intro e
  unfold val_main_v3
  rw [concat_two_apply _ _ _ (by norm_num) e]
  by_cases he : e.val < 640000
  · rw [dif_pos he, val_main_v2_apply, val_main_v1_apply]
    have : idx_main_v1 (idx_main_v2 (ix1 (⟨e.val, he⟩ : Fin 640000))) = ix2 (0 : Fin 2) ⟨e.val, he⟩ := by
      funext a
      match a with
      | ⟨0, _⟩ => rfl
      | ⟨1, _⟩ => exact Fin.ext (Nat.mod_eq_of_lt he)
    rw [this]
    exact hrow _
  · rw [dif_neg he, val_main_v0_apply]
    show (BitVec.ofNat 32 (e.val - 640000)).toNat < 10000
    rw [BitVec.toNat_ofNat]
    have := e.isLt
    omega

/-- Every edge's weight is a real number: a given one by hypothesis, a loop's is one. -/
theorem a_real (ew : S640000.Idx → EReal) (hew : ∀ i, ∃ r : ℝ, ew i = (r : EReal)) :
    ∀ i, ∃ r : ℝ, (val_main_v8 (F := Ideal) ew : S650000.Idx → EReal) i = (r : EReal) := by
  intro i
  obtain ⟨e, rfl⟩ : ∃ e, i = ix1 e := ⟨i 0, eq_ix1 i⟩
  unfold val_main_v8
  rw [concat_two_apply _ _ _ (by norm_num) e]
  by_cases he : e.val < 640000
  · rw [dif_pos he]
    exact hew _
  · rw [dif_neg he, val_main_v7_apply, val_main_cst_apply]
    refine ⟨1, ?_⟩
    show Ideal.ofBits .f32 0x3F800000#32 = ((1 : ℝ) : EReal)
    simp [Ideal.ofBits, Ideal.ieee, -EReal.coe_mul]
    norm_num

/-- Zero plus a finite sum of real numbers, added up in the extended reals, is a real number. -/
theorem zero_add_sum_real {ι : Type} (z : EReal) (hz : z = 0) (s : Finset ι) (f : ι → EReal)
    (hf : ∀ j, ∃ r : ℝ, f j = (r : EReal)) : ∃ r : ℝ, z + ∑ j ∈ s, f j = (r : EReal) := by
  classical
  subst hz
  rw [zero_add]
  induction s using Finset.induction_on with
  | empty => exact ⟨0, by simp⟩
  | insert a s ha ih =>
    obtain ⟨r, hr⟩ := ih
    obtain ⟨q, hq⟩ := hf a
    exact ⟨q + r, by rw [Finset.sum_insert ha, hr, hq, EReal.coe_add]⟩

/-- The pattern of all zero bits is the number zero. -/
theorem zero_bits : Ideal.ofBits .f32 0x00000000#32 = (0 : EReal) := by simp [Ideal.ofBits, Ideal.ieee]

/-- Every node's degree is a real number: zero plus a finite sum of real weights. -/
theorem deg_real (ew : S640000.Idx → EReal) (ei : S2x640000.Idx → BitVec 32) (hew : ∀ i, ∃ r : ℝ, ew i = (r : EReal)) :
    ∀ i, ∃ r : ℝ, (val_main_v11 (F := Ideal) ew ei : S10000.Idx → EReal) i = (r : EReal) := by
  intro i
  unfold val_main_v11 Host.scatterAdd
  rw [Ideal.hostScatterAdd_def]
  unfold Ideal.hostScatterAdd
  rw [val_main_v9_apply, val_main_cst_0_apply]
  exact zero_add_sum_real _ zero_bits _ _ (a_real ew hew)

/-- Every degree factor is a real number. -/
theorem dinv_real (ew : S640000.Idx → EReal) (ei : S2x640000.Idx → BitVec 32) (hew : ∀ i, ∃ r : ℝ, ew i = (r : EReal)) :
    ∀ i, ∃ r : ℝ, (val_main_v15 (F := Ideal) ew ei : S10000.Idx → EReal) i = (r : EReal) := by
  intro i
  rw [val_main_v15_apply, val_main_v13_apply, val_main_v14_apply, val_main_call0_v1_apply, val_main_call0_v0_apply,
    val_main_cst_2_apply, val_main_v12_apply, val_main_cst_1_apply]
  obtain ⟨r, hr⟩ := deg_real ew ei hew i
  rw [hr]
  show ∃ q : ℝ, Scalar.select (Ideal.cmp .ogt (r : EReal) (Ideal.ofBits .f32 0x00000000#32)) (Ideal.rsqrt (r : EReal))
    (Ideal.ofBits .f32 0x00000000#32) = (q : EReal)
  rw [zero_bits]
  by_cases hpos : 0 < r
  · -- a positive degree: the comparison holds and the inverse square root is a real number
    have hc : Ideal.cmp .ogt (r : EReal) 0 = 1#1 := by
      simp [Ideal.cmp, hpos]
    rw [hc, select_one, Ideal.rsqrt_coe, if_neg (not_lt.2 hpos.le), if_neg hpos.ne']
    exact ⟨_, rfl⟩
  · -- otherwise the comparison fails and the factor is the real zero
    have hc : Ideal.cmp .ogt (r : EReal) 0 = 0#1 := by
      simp [Ideal.cmp, hpos]
    rw [hc, select_zero]
    exact ⟨0, by simp⟩

end Cert.ReferenceIdeal.Chain

end
-- ==== Proof.RefValue.lean ====
/-
  The reference's result read at an index.

  The reference adds the bias to an accumulating scatter, by destination, of the per-edge products
  (row of x·wᵀ at the edge's source) · ((δ at the source · weight) · δ at the destination). Read at node `n`,
  feature `d`, the scatter keeps the updates of feature `d` over the edges whose destination word is `n`; each
  gather reads its table at the edge's word, signed and clamped, which for a word below 10000 is the node the word
  names; the printed index normalisation is the identity on such words. So the result is `gcn` term by term.
-/
import proofs.«428846_j30477087933050_3_alg».proof.Proof.Gen.ReferenceIdeal.Read
import proofs.«428846_j30477087933050_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Idealize.ShloMosaic Idealize.ShloMosaic.ValueIdx
open Cert.ReferenceIdeal Cert.ReferenceIdeal.Read

/-- The dimension numbers of the accumulating scatter: rows by destination, the feature axis a window. -/
abbrev SD := scatter_S10000x128_S650000x1_S650000x128_1_0_0_1

theorem sc_window0 (j : S650000x128.Idx) : SD.window j 0 = 0 := rfl
theorem sc_window1 (j : S650000x128.Idx) : SD.window j 1 = (j 1).val := rfl
theorem sc_start1 (j : S650000x128.Idx) (idx : IVec S650000x1 32) : SD.start j idx 1 = 0 := rfl
theorem sc_start0 (j : S650000x128.Idx) (idx : IVec S650000x1 32) :
    SD.start j idx 0 = (idx (ix2 ⟨(j 0).val, (j 0).isLt⟩ 0)).toInt := by
  unfold ScatterDims.start
  rw [dif_pos (by decide)]
  congr 2
  funext b
  match b with
  | ⟨0, _⟩ => rfl
  | ⟨1, _⟩ => rfl

theorem sc_resultIdx (idx : IVec S650000x1 32) (e : Fin 650000) (d' : Fin 128) (n : Fin 10000) (d : Fin 128) :
    SD.resultIdx? (ix2 e d') idx = some (ix2 n d) ↔ d' = d ∧ (idx (ix2 e 0)).toInt = (n.val : Int) := by
  have hn := n.isLt
  have hd' := d'.isLt
  have s0 : SD.start (ix2 e d') idx 0 = (idx (ix2 e 0)).toInt := sc_start0 _ _
  have s1 : SD.start (ix2 e d') idx 1 = 0 := sc_start1 _ _
  have w0 : SD.window (ix2 e d') 0 = 0 := sc_window0 _
  have w1 : SD.window (ix2 e d') 1 = d'.val := sc_window1 _
  unfold ScatterDims.resultIdx?
  constructor
  · intro h
    split at h
    · rename_i hh
      have h' := Option.some.inj h
      have h0 := congrArg (fun f => (f 0).val) h'
      have h1 := congrArg (fun f => (f 1).val) h'
      have hh0 := hh 0
      simp only [s0, s1, w0, w1] at h0 h1 hh0
      refine ⟨Fin.ext ?_, ?_⟩
      · have : (ix2 n d (1 : Fin 2)).val = d.val := rfl
        omega
      · have : (ix2 n d (0 : Fin 2)).val = n.val := rfl
        omega
    · exact absurd h (by simp)
  · rintro ⟨rfl, ht⟩
    have hc : ∀ a, 0 ≤ SD.start (ix2 e d') idx a + SD.window (ix2 e d') a ∧
        SD.start (ix2 e d') idx a + SD.window (ix2 e d') a < S10000x128.size a := by
      intro a
      match a with
      | ⟨0, _⟩ =>
        show 0 ≤ SD.start (ix2 e d') idx 0 + SD.window (ix2 e d') 0 ∧ SD.start (ix2 e d') idx 0 + SD.window (ix2 e d') 0 < (10000 : Nat)
        rw [s0, w0, ht]; omega
      | ⟨1, _⟩ =>
        show 0 ≤ SD.start (ix2 e d') idx 1 + SD.window (ix2 e d') 1 ∧ SD.start (ix2 e d') idx 1 + SD.window (ix2 e d') 1 < (128 : Nat)
        rw [s1, w1]; omega
    rw [dif_pos hc]
    congr 1
    funext a
    apply Fin.ext
    match a with
    | ⟨0, _⟩ =>
      show (SD.start (ix2 e d') idx 0 + SD.window (ix2 e d') 0).toNat = n.val
      rw [s0, w0, ht]; omega
    | ⟨1, _⟩ =>
      show (SD.start (ix2 e d') idx 1 + SD.window (ix2 e d') 1).toNat = d'.val
      rw [s1, w1]; omega

/-- A word reads signed as the small number `n` exactly when it is the word of `n`. -/
theorem toInt_eq_small_iff (v : BitVec 32) (n : ℕ) (hn : n < 2 ^ 31) :
    v.toInt = (n : Int) ↔ v = BitVec.ofNat 32 n := by
  constructor
  · intro h
    apply BitVec.eq_of_toNat_eq
    rw [BitVec.toNat_ofNat]
    have hv := v.isLt
    rw [BitVec.toInt_eq_toNat_cond] at h
    split at h <;> omega
  · rintro rfl
    exact StableHlo.Predicate.toInt_ofNat_small n hn

/-- The accumulating scatter read at row `n`, feature `d`: the operand there plus the updates of feature `d` over the
    edges whose index word is `n`. -/
theorem scatter_apply (z : S10000x128.Idx → EReal) (idx : IVec S650000x1 32) (upd : S650000x128.Idx → EReal)
    (n : Fin 10000) (d : Fin 128) :
    Host.scatterAdd (F := Ideal) (φ := .f32) SD z idx upd (ix2 n d)
      = z (ix2 n d) + ∑ e : Fin 650000, if idx (ix2 e 0) = BitVec.ofNat 32 n.val then upd (ix2 e d) else 0 := by
  show Ideal.hostScatterAdd SD z idx upd (ix2 n d) = _
  unfold Ideal.hostScatterAdd
  refine congrArg (fun t => z (ix2 n d) + t) ?_
  rw [Finset.sum_filter, sum_idx2]
  refine Finset.sum_congr rfl fun e _ => ?_
  have hn : n.val < 2 ^ 31 := by have := n.isLt; omega
  by_cases he : idx (ix2 e 0) = BitVec.ofNat 32 n.val
  · rw [if_pos he, Finset.sum_eq_single d]
    · rw [if_pos ((sc_resultIdx idx e d n d).2 ⟨rfl, (toInt_eq_small_iff _ _ hn).2 he⟩)]
    · intro d' _ hd'
      rw [if_neg fun h => hd' ((sc_resultIdx idx e d' n d).1 h).1]
    · intro h; exact absurd (Finset.mem_univ d) h
  · rw [if_neg he]
    refine Finset.sum_eq_zero fun d' _ => ?_
    rw [if_neg fun h => he ((toInt_eq_small_iff _ _ hn).1 ((sc_resultIdx idx e d' n d).1 h).2)]

/-- The dimension numbers of the two per-edge reads of a per-node vector. -/
abbrev GD1 := gather_S10000_S650000x1_S650000_n_0_n_n_0_1_1
/-- The dimension numbers of the per-edge read of a row of the node table. -/
abbrev GD2 := gather_S10000x128_S650000x1_S650000x128_1_0_n_n_0_1_1128

/-- The per-edge read of a per-node vector: the entry at the edge's index word, read signed and clamped. -/
theorem gather1_apply {α : Type} (x : S10000.Idx → α) (idx : IVec S650000x1 32) (e : Fin 650000) :
    Host.gather GD1 x idx (ix1 e) = x (ix1 ⟨min (idx (ix2 e 0)).toInt.toNat 9999, by omega⟩) := by
  have e1 : (ix1 e : S650000.Idx) = Shape.Idx.ofFin e := by
    funext a; match a with | ⟨0, _⟩ => rfl
  have e2 : (StableHlo.Predicate.ixP e : S650000x1.Idx) = ix2 e 0 := by
    funext a; match a with | ⟨0, _⟩ => rfl | ⟨1, _⟩ => rfl
  rw [e1, StableHlo.Predicate.gather_take GD1 rfl rfl rfl rfl x idx e (by decide)]
  refine congrArg x ?_
  funext a
  apply Fin.ext
  match a with
  | ⟨0, _⟩ =>
    show min (idx (StableHlo.Predicate.ixP e)).toInt.toNat (10000 - 1) = min (idx (ix2 e 0)).toInt.toNat 9999
    rw [e2]

theorem g2_batch (j : S650000x128.Idx) (a : Fin 2) : GD2.batchCoord j a = 0 := rfl
theorem g2_off0 (j : S650000x128.Idx) : GD2.offCoord j 0 = 0 := rfl
theorem g2_off1 (j : S650000x128.Idx) : GD2.offCoord j 1 = (j 1).val := rfl
theorem g2_start1 (j : S650000x128.Idx) (idx : IVec S650000x1 32) : GD2.start j idx 1 = 0 := rfl
theorem g2_start0 (j : S650000x128.Idx) (idx : IVec S650000x1 32) :
    GD2.start j idx 0 = min (idx (ix2 ⟨(j 0).val, (j 0).isLt⟩ 0)).toInt.toNat 9999 := by
  unfold GatherDims.start
  rw [dif_pos (by decide)]
  have hsi : GD2.siIdx j ⟨List.idxOf (0 : Fin 2) GD2.startIndexMap, List.idxOf_lt_length_iff.2 (by decide)⟩
      = ix2 ⟨(j 0).val, (j 0).isLt⟩ 0 := by
    funext b
    match b with
    | ⟨0, _⟩ => rfl
    | ⟨1, _⟩ => rfl
  rw [hsi]
  rfl

/-- The per-edge read of a row of the node table: the row at the edge's index word, read signed and clamped, the
    feature kept. -/
theorem gather2_apply {α : Type} (x : S10000x128.Idx → α) (idx : IVec S650000x1 32) (e : Fin 650000) (d : Fin 128) :
    Host.gather GD2 x idx (ix2 e d) = x (ix2 ⟨min (idx (ix2 e 0)).toInt.toNat 9999, by omega⟩ d) := by
  unfold Host.gather
  refine congrArg x ?_
  funext a
  apply Fin.ext
  match a with
  | ⟨0, _⟩ =>
    show GD2.start (ix2 e d) idx 0 + GD2.batchCoord (ix2 e d) 0 + GD2.offCoord (ix2 e d) 0 = _
    rw [g2_start0, g2_batch, g2_off0]
    rfl
  | ⟨1, _⟩ =>
    show GD2.start (ix2 e d) idx 1 + GD2.batchCoord (ix2 e d) 1 + GD2.offCoord (ix2 e d) 1 = _
    rw [g2_start1, g2_batch, g2_off1]
    show 0 + 0 + d.val = d.val
    omega

/-- The printed index normalisation (add 10000 to a negative word) leaves a word below 10000 as it is. -/
theorem norm_id (v : BitVec 32) (hv : v.toNat < 10000) :
    Scalar.select (IntOp.cmpi .slt v 0#32) (IntOp.addi v 10000#32) v = v := by
  have h : ¬ IntOp.cmpi .slt v 0#32 = 1#1 := by
    rw [StableHlo.Predicate.slt_iff_toNat (by omega) (by decide)]
    exact Nat.not_lt_zero _
  exact if_neg h

/-- A word below 10000, read signed and clamped into the table, is itself: as a row it is the node it names. -/
theorem clamp_node (v : BitVec 32) (hv : v.toNat < 10000) (h : min v.toInt.toNat 9999 < 10000) :
    (⟨min v.toInt.toNat 9999, h⟩ : Fin 10000) = Cert.Gcn.node v := by
  apply Fin.ext
  show min v.toInt.toNat 9999 = v.toNat % 10000
  rw [StableHlo.Predicate.toInt_eq_toNat_of_lt (by omega), Nat.mod_eq_of_lt hv]
  omega

/-- The word of a node, read as a node, is that node. -/
theorem node_ofNat (n : Fin 10000) : Cert.Gcn.node (BitVec.ofNat 32 n.val) = n := by
  apply Fin.ext
  show (BitVec.ofNat 32 n.val).toNat % 10000 = n.val
  have := n.isLt
  rw [BitVec.toNat_ofNat]
  omega

/-- The per-edge read of a per-node vector at a word below 10000 reads the node the word names. -/
theorem gather1_node {α : Type} (x : S10000.Idx → α) (idx : IVec S650000x1 32) (e : Fin 650000)
    (hv : (idx (ix2 e 0)).toNat < 10000) :
    Host.gather GD1 x idx (ix1 e) = x (ix1 (Cert.Gcn.node (idx (ix2 e 0)))) := by
  rw [gather1_apply, clamp_node _ hv]

/-- The per-edge read of a row of the node table at a word below 10000 reads the row of the node the word names. -/
theorem gather2_node {α : Type} (x : S10000x128.Idx → α) (idx : IVec S650000x1 32) (e : Fin 650000) (d : Fin 128)
    (hv : (idx (ix2 e 0)).toNat < 10000) :
    Host.gather GD2 x idx (ix2 e d) = x (ix2 (Cert.Gcn.node (idx (ix2 e 0))) d) := by
  rw [gather2_apply, clamp_node _ hv]

/-- The product of the node table with the transposed weights, at row `r`, feature `d`. -/
theorem v33_at (x : S10000x128.Idx → EReal) (w : S128x128.Idx → EReal) (r : Fin 10000) (d : Fin 128) :
    (val_main_v33 (F := Ideal) x w : S10000x128.Idx → EReal) (ix2 r d) = Cert.Gcn.lin x w r d := by
  rw [val_main_v33_apply]
  unfold Cert.Gcn.lin
  refine Finset.sum_congr rfl fun k _ => ?_
  rw [val_main_v32_apply]
  have el : lidx_main_v33 (ix2 r d) k = ix2 r k :=
    funext fun a => Fin.ext (by match a with | ⟨0, _⟩ => rfl | ⟨1, _⟩ => rfl)
  have er : idx_main_v32 (ridx_main_v33 (ix2 r d) k) = ix2 d k :=
    funext fun a => Fin.ext (by match a with | ⟨0, _⟩ => rfl | ⟨1, _⟩ => rfl)
  rw [el, er]

/-- The three normalised index columns, at an edge whose word is below 10000, hold the word itself. -/
theorem v21_at (ei : S2x640000.Idx → BitVec 32) (e : Fin 650000)
    (hv : ((val_main_v3 (F := Ideal) ei : S650000.Idx → BitVec 32) (ix1 e)).toNat < 10000) :
    (val_main_v21 (F := Ideal) ei : S650000x1.Idx → BitVec 32) (ix2 e 0) = val_main_v3 (F := Ideal) ei (ix1 e) := by
  rw [val_main_v21_apply]
  have hi : idx_main_v21 (ix2 e 0) = ix1 e := funext fun a => by match a with | ⟨0, _⟩ => rfl
  rw [hi, val_main_v20_apply, val_main_v17_apply, val_main_v19_apply, val_main_v16_apply, val_main_v18_apply,
    val_main_c_apply, val_main_c_3_apply]
  exact norm_id _ hv

theorem v39_at (ei : S2x640000.Idx → BitVec 32) (e : Fin 650000)
    (hv : ((val_main_v3 (F := Ideal) ei : S650000.Idx → BitVec 32) (ix1 e)).toNat < 10000) :
    (val_main_v39 (F := Ideal) ei : S650000x1.Idx → BitVec 32) (ix2 e 0) = val_main_v3 (F := Ideal) ei (ix1 e) := by
  rw [val_main_v39_apply]
  have hi : idx_main_v39 (ix2 e 0) = ix1 e := funext fun a => by match a with | ⟨0, _⟩ => rfl
  rw [hi, val_main_v38_apply, val_main_v35_apply, val_main_v37_apply, val_main_v34_apply, val_main_v36_apply,
    val_main_c_6_apply, val_main_c_7_apply]
  exact norm_id _ hv

theorem v29_at (ei : S2x640000.Idx → BitVec 32) (e : Fin 650000)
    (hv : ((val_main_v6 (F := Ideal) ei : S650000.Idx → BitVec 32) (ix1 e)).toNat < 10000) :
    (val_main_v29 (F := Ideal) ei : S650000x1.Idx → BitVec 32) (ix2 e 0) = val_main_v6 (F := Ideal) ei (ix1 e) := by
  rw [val_main_v29_apply]
  have hi : idx_main_v29 (ix2 e 0) = ix1 e := funext fun a => by match a with | ⟨0, _⟩ => rfl
  rw [hi, val_main_v28_apply, val_main_v25_apply, val_main_v27_apply, val_main_v24_apply, val_main_v26_apply,
    val_main_c_4_apply, val_main_c_5_apply]
  exact norm_id _ hv

theorem v45_at (ei : S2x640000.Idx → BitVec 32) (e : Fin 650000) :
    (val_main_v45 (F := Ideal) ei : S650000x1.Idx → BitVec 32) (ix2 e 0) = val_main_v6 (F := Ideal) ei (ix1 e) := by
  rw [val_main_v45_apply]
  have hi : idx_main_v45 (ix2 e 0) = ix1 e := funext fun a => by match a with | ⟨0, _⟩ => rfl
  rw [hi]

/-- The gathered row of the product, at an edge whose source word is a node: the linear layer at that node. -/
theorem v40_at (x : S10000x128.Idx → EReal) (w : S128x128.Idx → EReal) (ei : S2x640000.Idx → BitVec 32)
    (e : Fin 650000) (d : Fin 128)
    (hv : ((val_main_v3 (F := Ideal) ei : S650000.Idx → BitVec 32) (ix1 e)).toNat < 10000) :
    (val_main_v40 (F := Ideal) x w ei : S650000x128.Idx → EReal) (ix2 e d)
      = Cert.Gcn.lin x w (Cert.Gcn.node ((val_main_v3 (F := Ideal) ei : S650000.Idx → BitVec 32) (ix1 e))) d := by
  unfold val_main_v40
  rw [gather2_node _ _ _ _ (by rw [v39_at ei e hv]; exact hv), v39_at ei e hv, v33_at]

/-- The degree factor gathered by source, at an edge whose source word is a node. -/
theorem v22_at (ew : S640000.Idx → EReal) (ei : S2x640000.Idx → BitVec 32) (e : Fin 650000)
    (hv : ((val_main_v3 (F := Ideal) ei : S650000.Idx → BitVec 32) (ix1 e)).toNat < 10000) :
    (val_main_v22 (F := Ideal) ew ei : S650000.Idx → EReal) (ix1 e)
      = (val_main_v15 (F := Ideal) ew ei : S10000.Idx → EReal)
          (ix1 (Cert.Gcn.node ((val_main_v3 (F := Ideal) ei : S650000.Idx → BitVec 32) (ix1 e)))) := by
  unfold val_main_v22
  rw [gather1_node _ _ _ (by rw [v21_at ei e hv]; exact hv), v21_at ei e hv]

/-- The degree factor gathered by destination, at an edge whose destination word is the node `n`. -/
theorem v30_at (ew : S640000.Idx → EReal) (ei : S2x640000.Idx → BitVec 32) (e : Fin 650000) (n : Fin 10000)
    (he : (val_main_v6 (F := Ideal) ei : S650000.Idx → BitVec 32) (ix1 e) = BitVec.ofNat 32 n.val) :
    (val_main_v30 (F := Ideal) ew ei : S650000.Idx → EReal) (ix1 e)
      = (val_main_v15 (F := Ideal) ew ei : S10000.Idx → EReal) (ix1 n) := by
  have hv : ((val_main_v6 (F := Ideal) ei : S650000.Idx → BitVec 32) (ix1 e)).toNat < 10000 := by
    rw [he, BitVec.toNat_ofNat]; have := n.isLt; omega
  unfold val_main_v30
  rw [gather1_node _ _ _ (by rw [v29_at ei e hv]; exact hv), v29_at ei e hv, he, node_ofNat]

/-- The per-edge norm laid along the features reads the norm of the edge. -/
theorem v42_at (ew : S640000.Idx → EReal) (ei : S2x640000.Idx → BitVec 32) (e : Fin 650000) (d : Fin 128) :
    (val_main_v42 (F := Ideal) ew ei : S650000x128.Idx → EReal) (ix2 e d)
      = (val_main_v31 (F := Ideal) ew ei : S650000.Idx → EReal) (ix1 e) := by
  rw [val_main_v42_apply, val_main_v41_apply]
  have hi : idx_main_v41 (idx_main_v42 (ix2 e d)) = ix1 e := funext fun a => by match a with | ⟨0, _⟩ => rfl
  rw [hi]

/-- The reference's result at node `n`, feature `d` is the layer's output, when every edge's source word is a node. -/
theorem value (x : S10000x128.Idx → EReal) (w : S128x128.Idx → EReal) (b : S128.Idx → EReal)
    (ew : S640000.Idx → EReal) (ei : S2x640000.Idx → BitVec 32)
    (hS : ∀ e : Fin 650000, ((val_main_v3 (F := Ideal) ei : S650000.Idx → BitVec 32) (ix1 e)).toNat < 10000)
    (n : Fin 10000) (d : Fin 128) :
    (val_main_v49 (F := Ideal) x w b ew ei : S10000x128.Idx → EReal) (ix2 n d)
      = Cert.Gcn.gcn x w b (val_main_v3 (F := Ideal) ei) (val_main_v6 (F := Ideal) ei) (val_main_v8 (F := Ideal) ew)
          (val_main_v15 (F := Ideal) ew ei) n d := by
  rw [val_main_v49_apply, val_main_v48_apply, val_main_v47_apply]
  have hb : idx_main_v47 (idx_main_v48 (ix2 n d)) = ix1 d := funext fun a => by match a with | ⟨0, _⟩ => rfl
  rw [hb]
  unfold Cert.Gcn.gcn
  refine congrArg (fun t : EReal => t + b (ix1 d)) ?_
  unfold val_main_v46
  refine (scatter_apply _ _ _ n d).trans ?_
  rw [val_main_v44_apply, val_main_cst_8_apply]
  have hz : (FloatOps.ofBits (F := Ideal) .f32 0x00000000#32 : EReal) = 0 := Ideal.ofBits_zero_f32
  rw [hz, zero_add]
  refine Finset.sum_congr rfl fun e _ => ?_
  rw [v45_at]
  by_cases he : (val_main_v6 (F := Ideal) ei : S650000.Idx → BitVec 32) (ix1 e) = BitVec.ofNat 32 n.val
  · rw [if_pos he, if_pos he, val_main_v43_apply, v40_at x w ei e d (hS e), v42_at, val_main_v31_apply,
      val_main_v23_apply, v22_at ew ei e (hS e), v30_at ew ei e n he]
    rfl
  · rw [if_neg he, if_neg he]

end Cert.ReferenceIdeal.RefValue

end
-- ==== Proof.Pre.lean ====
/-
  The precondition read back: when the printed predicate is all ones, every entry of the features, of the
  weights and of the edge weights is a real number, and every given edge's source word names a node.

  Each float conjunct says `max x (-x) < +∞` entry by entry, which fails at both infinities and holds at every
  real. The two integer conjuncts say `0 ≤ v` and `v < 10000` of row 0 of the edge table read as signed words;
  together they put the word's unsigned value below 10000.
-/
import proofs.«428846_j30477087933050_3_alg».proof.Pre_finite_inputs
import proofs.«428846_j30477087933050_3_alg».proof.Proof.Gen.Pre_finite_inputs
import Idealize.ShloMosaic.PureOps.Ideal
import Idealize.ShloMosaic.Lib.ValueIdx
import Idealize.ShloMosaic.Lib.ValueLayout
import Idealize.ShloMosaic.Lib.ReduceAll
import Idealize.ShloMosaic.Lib.StableHlo.Predicate

noncomputable section

namespace Cert.Pre_finite_inputs.Decode

open Idealize.ShloMosaic Idealize.ShloMosaic.ValueIdx
open Cert.Pre_finite_inputs Cert.Pre_finite_inputs.Facts

instance : Subsingleton S_.Idx := ⟨fun a b => funext fun d => d.elim0⟩

/-- The pattern `0x7F800000` denotes `+∞`. -/
theorem inf_bits : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of a float conjunct: the comparison of `|x i|` with the broadcast `+∞` being one makes `x i` real. -/
theorem real_of_entry {s : Shape} (x : s.Idx → EReal) (hb : S_.BroadcastsInDim s (![] : Fin 0 → Fin s.rank)) (i : s.Idx)
    (h : (cmpf (F := Ideal) .olt (Host.absf x) (broadcastInDim s ![] hb (constant (F := Ideal) S_ .f32 0x7F800000#32)) :
      s.Idx → BitVec 1) i = 1#1) : ∃ r : ℝ, x i = (r : EReal) := by
  have h' : BitVec.ofBool (decide (max (x i) (-(x i)) < Ideal.ofBits .f32 0x7F800000#32)) = 1#1 := h
  rw [StableHlo.Predicate.ofBool_eq_one_iff, decide_eq_true_eq, inf_bits] at h'
  exact real_of_abs_lt_top _ h'

/-- A word that is at least zero and below 10000 as a signed number has unsigned value below 10000. -/
theorem toNat_lt_of_signed (v : BitVec 32) (h0 : IntOp.cmpi .sge v 0#32 = 1#1) (h1 : IntOp.cmpi .slt v 10000#32 = 1#1) :
    v.toNat < 10000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (10000#32 : BitVec 32).toInt = 10000 := by decide
  rw [e0] at h0; rw [e1] at h1
  have hc := BitVec.toInt_eq_toNat_cond v
  have hlt := v.isLt
  split_ifs at hc <;> omega

theorem decode (x : S10000x128.Idx → EReal) (w : S128x128.Idx → EReal) (b : S128.Idx → EReal)
    (ew : S640000.Idx → EReal) (ei : S2x640000.Idx → BitVec 32)
    (h : Cert.Pre_finite_inputs.fn (F := Ideal) x w b ew ei = fun _ => 1#1) :
    (∀ i, ∃ r : ℝ, x i = (r : EReal)) ∧ (∀ i, ∃ r : ℝ, w i = (r : EReal)) ∧ (∀ i, ∃ r : ℝ, ew i = (r : EReal))
      ∧ ∀ e : Fin 640000, (ei (ix2 (0 : Fin 2) e)).toNat < 10000 := by
  have h0 := congrFun h ix0
  dsimp only [fn, fn_part1] at h0
  obtain ⟨h5, hlt⟩ := IntOp.andi_eq_one.1 h0
  obtain ⟨h4, hge⟩ := IntOp.andi_eq_one.1 h5
  obtain ⟨h3, hew⟩ := IntOp.andi_eq_one.1 h4
  obtain ⟨h2, hb⟩ := IntOp.andi_eq_one.1 h3
  obtain ⟨hx, hw⟩ := IntOp.andi_eq_one.1 h2
  refine ⟨fun i => real_of_entry x _ i (Host.reduce_andi_all _ _ _ _ _ hx i),
    fun i => real_of_entry w _ i (Host.reduce_andi_all _ _ _ _ _ hw i),
    fun i => real_of_entry ew _ i (Host.reduce_andi_all _ _ _ _ _ hew i), fun e => ?_⟩
  have hge' := Host.reduce_andi_all _ _ _ _ _ hge (ix1 e)
  have hlt' := Host.reduce_andi_all _ _ _ _ _ hlt (ix1 e)
  have hv : (shapeCast S640000 (extractStridedSlice S1x640000 ![0, 0] ei slices_S2x640000_S1x640000_0_0)
      shapeCasts_S1x640000_S640000 : S640000.Idx → BitVec 32) (ix1 e) = ei (ix2 (0 : Fin 2) e) := by
    rw [shapeCast_1a_a_apply, slice2_axis0_apply 0 ei _ (0 : Fin 1) e (0 : Fin 2) (by simp)]
  exact toNat_lt_of_signed _ (hv ▸ hge') (hv ▸ hlt')

end Cert.Pre_finite_inputs.Decode

end
-- ==== Proof.lean ====
/-
  The certificate's claims, assembled.

  Both programs compute one graph-convolution layer. The kernel's result buffer, read at node `n` and feature
  `d`, is the degree factor of `n` times the two halves' accumulated rows plus the bias (the last host stretch);
  each half's row is the sum over its 635 edge tiles of the tile's contribution (the second pallas_call, an
  accumulation over the grid); the table those tiles read is the first pallas_call's output, the padded
  features against the weights scaled by the padded degree factors. The reference's result at `(n, d)` is the
  layer's output `gcn` read off its gathers and its scatter-add. The two agree when the float inputs are real
  numbers and every given edge's source word names a node: then the one-hot sums pick single rows, the padded
  edges weigh nothing, and the degree factor distributes over the sum of real messages.
-/
import proofs.«428846_j30477087933050_3_alg».proof.Defs
import proofs.«428846_j30477087933050_3_alg».proof.Proof.Gen.Kernel
import proofs.«428846_j30477087933050_3_alg».proof.Proof.Gen.Kernel.Frame
import proofs.«428846_j30477087933050_3_alg».proof.Proof.Gen.KernelIdeal
import proofs.«428846_j30477087933050_3_alg».proof.Proof.Gen.KernelIdeal.Frame
import proofs.«428846_j30477087933050_3_alg».proof.Proof.Gen.ReferenceIdeal
import proofs.«428846_j30477087933050_3_alg».proof.Proof.Gen.ReferenceIdeal.Run
import proofs.«428846_j30477087933050_3_alg».proof.Proof.Gen.ReferenceIdeal.Read
import proofs.«428846_j30477087933050_3_alg».proof.Proof.Gen.Pre_finite_inputs
import proofs.«428846_j30477087933050_3_alg».proof.Proof.Spec
import proofs.«428846_j30477087933050_3_alg».proof.Proof.Algebra
import proofs.«428846_j30477087933050_3_alg».proof.Proof.KNames
import proofs.«428846_j30477087933050_3_alg».proof.Proof.KRun
import proofs.«428846_j30477087933050_3_alg».proof.Proof.KRegion0
import proofs.«428846_j30477087933050_3_alg».proof.Proof.KRegion1
import proofs.«428846_j30477087933050_3_alg».proof.Proof.KHostPre
import proofs.«428846_j30477087933050_3_alg».proof.Proof.KHostMid
import proofs.«428846_j30477087933050_3_alg».proof.Proof.KHostTail
import proofs.«428846_j30477087933050_3_alg».proof.Proof.Chain
import proofs.«428846_j30477087933050_3_alg».proof.Proof.RefValue
import proofs.«428846_j30477087933050_3_alg».proof.Proof.Pre
import Idealize.ShloMosaic.Adequacy
import Idealize.ShloMosaic.Init

noncomputable section

namespace Cert.Proof

open Idealize.ShloMosaic Idealize.ShloMosaic.TcCoe Idealize.ShloMosaic.ValueIdx Idealize.SL.Sem

section Kernel

open Cert.KernelIdeal Cert.KernelIdeal.Gen Cert.KernelIdeal.Names

variable (m : (ℓ : Loc nD τ sig) → Buf (Elt Ideal) ℓ) (ρ : Dev nD → PrngReg) (c : Dev nD)

/-- The kernel's result at node `n`, feature `d` is the layer's output, when the precondition holds of the launch
    arrays: the host tail over the second call's rows, those over the first call's table, that over the padded
    inputs, and the two arrangements agree. -/
theorem kernel_at
    (hpre : Cert.Pre_finite_inputs.fn (F := Ideal) (xA m c) (wA m c) (bA m c) (ewA m c) (eiA m c) = fun _ => 1#1)
    (n : Fin 10000) (d : Fin 128) :
    Cert.KernelIdeal.HostTail.outArr m ρ c (ix2 n d)
      = Cert.Gcn.gcn (xA m c) (wA m c) (bA m c) (srcA m c) (dstA m c) (aA m c) (δA m c) n d := by
  obtain ⟨hx, hw, hew, hrow⟩ := Cert.Pre_finite_inputs.Decode.decode _ _ _ _ _ hpre
  rw [Cert.KernelIdeal.HostTail.v35_at m ρ c n d]
  show δA m c (ix1 n) * (Cert.KernelIdeal.HostTail.rawArr m ρ c (ix3 0 (Cert.Gcn.padRow n) d)
      + Cert.KernelIdeal.HostTail.rawArr m ρ c (ix3 1 (Cert.Gcn.padRow n) d)) + bA m c (ix1 d) = _
  rw [show Cert.KernelIdeal.HostTail.rawArr m ρ c (ix3 0 (Cert.Gcn.padRow n) d) = _ from
        Cert.KernelIdeal.Region1.value (V14 m ρ) c 0 (Cert.Gcn.padRow n) d,
      show Cert.KernelIdeal.HostTail.rawArr m ρ c (ix3 1 (Cert.Gcn.padRow n) d) = _ from
        Cert.KernelIdeal.Region1.value (V14 m ρ) c 1 (Cert.Gcn.padRow n) d]
  refine Cert.Gcn.kernel_eq_gcn (xA m c) (wA m c) (bA m c) (srcA m c) (dstA m c) (aA m c) (δA m c)
    (V7 m ρ c main_v0) (V7 m ρ c main_v18) (V14 m ρ c main_v19) (V14 m ρ c main_v20) (V14 m ρ c main_v21)
    (V14 m ρ c main_v22) hx hw (Cert.ReferenceIdeal.Chain.a_real _ hew)
    (Cert.ReferenceIdeal.Chain.dinv_real _ _ hew) (Cert.ReferenceIdeal.Chain.src_lt _ hrow)
    (Cert.KernelIdeal.HostPre.v0_at m ρ c) (Cert.KernelIdeal.HostPre.v18_at m ρ c) ?_
    (Cert.KernelIdeal.HostMid.v20_at m ρ c) (Cert.KernelIdeal.HostMid.v21_at m ρ c)
    (Cert.KernelIdeal.HostMid.v22_at m ρ c) n d
  intro s d'
  rw [Cert.KernelIdeal.HostMid.v19_eq m ρ c, Cert.KernelIdeal.Region0.value (V7 m ρ) c s d',
    Cert.KernelIdeal.HostPre.arg1_eq m ρ c]

end Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer's output in their result buffers. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v35),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1,
    (hagree c).2.2.2.2]
  have hp := hpre c
  have hS := Cert.ReferenceIdeal.Chain.src_lt _
    (Cert.Pre_finite_inputs.Decode.decode _ _ _ _ _ hp).2.2.2
  funext j
  obtain ⟨n, d, rfl⟩ : ∃ (n : Fin 10000) (d : Fin 128), j = ix2 n d := ⟨j 0, j 1, eq_ix2 j⟩
  exact (Cert.ReferenceIdeal.RefValue.value _ _ _ _ _ hS n d).trans (kernel_at m ρ c hp n d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
